-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S500000 : Shape := ⟨1, ![500000]⟩
abbrev S500000x16 : Shape := ⟨2, ![500000, 16]⟩
abbrev S256x128 : Shape := ⟨2, ![256, 128]⟩
abbrev S256 : Shape := ⟨1, ![256]⟩
abbrev S256x256 : Shape := ⟨2, ![256, 256]⟩
abbrev S256x528 : Shape := ⟨2, ![256, 528]⟩
abbrev S1x256 : Shape := ⟨2, ![1, 256]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S500000 : S_.BroadcastsInDim S500000 (![] : Fin 0 → Fin S500000.rank)
  reducesTo_S500000_S_d0 : S500000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x528 : S_.BroadcastsInDim S256x528 (![] : Fin 0 → Fin S256x528.rank)
  reducesTo_S256x528_S_d0_1 : S256x528.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1x256 .f32) (main_arg15 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1x256 .f32 := Host.absf main_arg14
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S256 .f32) (main_arg11 : FVec F S256x256 .f32) (main_arg12 : FVec F S256x528 .f32) (main_arg13 : FVec F S256 .f32) (main_arg14 : FVec F S1x256 .f32) (main_arg15 : FVec F S1 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg11
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x528 .f32 := Host.absf main_arg12
  let main_cst_16 : FVec F S_ .f32 := constant S_ .f32 0x7F800000#32
  let main_v45 : FVec F S256x528 .f32 := broadcastInDim S256x528 ![] bcast_S_S256x528 main_cst_16
  let main_v46 : IVec S256x528 1 := cmpf .olt main_v44 main_v45
  let main_c_17 : IVec S_ 1 := constantI S_ 1 1#1
  let main_v47 : IVec S_ 1 := (fun x v => Host.reduce IntOp.andi x v reducesTo_S256x528_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_v48 main_v49 main_v50

def fn_part1 {F : FTy → Type} [FloatOps F] (main_arg7 : FVec F S256 .f32) (main_arg8 : FVec F S256x128 .f32) (main_arg9 : FVec F S256x256 .f32) (main_arg10 : FVec F S256 .f32) (main_arg11 : FVec F S256x256 .f32) (main_arg12 : FVec F S256x528 .f32) (main_arg13 : FVec F S256 .f32) (main_arg14 : FVec F S1x256 .f32) (main_arg15 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg8
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S2x800000 32) (main_arg2 : IVec S500000 32) (main_arg3 : IVec S500000 32) (main_arg4 : FVec F S500000x16 .f32) (main_arg5 : FVec F S500000 .f32) (main_arg6 : FVec F S256x128 .f32) (main_arg7 : FVec F S256 .f32) (main_arg8 : FVec F S256x128 .f32) (main_arg9 : FVec F S256x256 .f32) (main_arg10 : FVec F S256 .f32) (main_arg11 : FVec F S256x256 .f32) (main_arg12 : FVec F S256x528 .f32) (main_arg13 : FVec F S256 .f32) (main_arg14 : FVec F S1x256 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x16 .f32 := Host.absf main_arg4
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S500000 .f32 := Host.absf main_arg5
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S500000 : Shape := ⟨1, ![500000]⟩
abbrev S500000x16 : Shape := ⟨2, ![500000, 16]⟩
abbrev S256x128 : Shape := ⟨2, ![256, 128]⟩
abbrev S256 : Shape := ⟨1, ![256]⟩
abbrev S256x256 : Shape := ⟨2, ![256, 256]⟩
abbrev S256x528 : Shape := ⟨2, ![256, 528]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩
abbrev S128x256 : Shape := ⟨2, ![128, 256]⟩
abbrev S800000x256 : Shape := ⟨2, ![800000, 256]⟩
abbrev S500000x1 : Shape := ⟨2, ![500000, 1]⟩
abbrev S500000x256 : Shape := ⟨2, ![500000, 256]⟩
abbrev S256x16 : Shape := ⟨2, ![256, 16]⟩
abbrev S1x1 : Shape := ⟨2, ![1, 1]⟩
abbrev S4000x256 : Shape := ⟨2, ![4000, 256]⟩
abbrev S4000x16 : Shape := ⟨2, ![4000, 16]⟩
abbrev S4000x1 : Shape := ⟨2, ![4000, 1]⟩
abbrev S16x256 : Shape := ⟨2, ![16, 256]⟩
abbrev S256x1 : Shape := ⟨2, ![256, 1]⟩

abbrev nBuf : Space → Nat
  | .hbm => 98
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S500000, .i32⟩
  | .hbm, ⟨3, _⟩ => ⟨S500000, .i32⟩
  | .hbm, ⟨4, _⟩ => ⟨S500000x16, .f32⟩
  | .hbm, ⟨5, _⟩ => ⟨S500000, .f32⟩
  | .hbm, ⟨6, _⟩ => ⟨S256x128, .f32⟩
  | .hbm, ⟨7, _⟩ => ⟨S256, .f32⟩
  | .hbm, ⟨8, _⟩ => ⟨S256x128, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x528, .f32⟩
  | .hbm, ⟨13, _⟩ => ⟨S256, .f32⟩
  | .hbm, ⟨14, _⟩ => ⟨S1x256, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S256x128, .bf16⟩
  | .hbm, ⟨46, _⟩ => ⟨S256x128, .bf16⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S256x256, .bf16⟩
  | .hbm, ⟨65, _⟩ => ⟨S256x256, .bf16⟩
  | .hbm, ⟨66, _⟩ => ⟨S1x256, .f32⟩
  | .hbm, ⟨67, _⟩ => ⟨S50000x256, .f32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x256, .f32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x256, .f32⟩
  | .hbm, ⟨86, _⟩ => ⟨S256x256, .f32⟩
  | .hbm, ⟨87, _⟩ => ⟨S256x256, .f32⟩
  | .hbm, ⟨88, _⟩ => ⟨S256x16, .f32⟩
  | .hbm, ⟨89, _⟩ => ⟨S500000x1, .f32⟩
  | .hbm, ⟨90, _⟩ => ⟨S256x256, .bf16⟩
  | .hbm, ⟨91, _⟩ => ⟨S256x256, .bf16⟩
  | .hbm, ⟨92, _⟩ => ⟨S256x16, .bf16⟩
  | .hbm, ⟨93, _⟩ => ⟨S1x256, .bf16⟩
  | .hbm, ⟨94, _⟩ => ⟨S1x256, .f32⟩
  | .hbm, ⟨95, _⟩ => ⟨S1x1, .f32⟩
  | .hbm, ⟨96, _⟩ => ⟨S500000x1, .f32⟩
  | .hbm, ⟨97, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .bf16⟩
  | .local _ .vmem, ⟨5, _⟩ => ⟨S256x128, .bf16⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S4000x16, .f32⟩
  | .local _ .vmem, ⟨23, _⟩ => ⟨S4000x16, .f32⟩
  | .local _ .vmem, ⟨24, _⟩ => ⟨S4000x1, .f32⟩
  | .local _ .vmem, ⟨25, _⟩ => ⟨S4000x1, .f32⟩
  | .local _ .vmem, ⟨26, _⟩ => ⟨S256x256, .bf16⟩
  | .local _ .vmem, ⟨27, _⟩ => ⟨S256x256, .bf16⟩
  | .local _ .vmem, ⟨28, _⟩ => ⟨S256x16, .bf16⟩
  | .local _ .vmem, ⟨29, _⟩ => ⟨S1x256, .f32⟩
  | .local _ .vmem, ⟨30, _⟩ => ⟨S1x256, .bf16⟩
  | .local _ .vmem, ⟨31, _⟩ => ⟨S1x1, .f32⟩
  | .local _ .vmem, ⟨32, _⟩ => ⟨S4000x1, .f32⟩
  | .local _ .vmem, ⟨33, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x16 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  bcast_S_S500000 : S_.BroadcastsInDim S500000 (![] : Fin 0 → Fin S500000.rank)
  bcast_S500000_S500000x1_0 : S500000.BroadcastsInDim S500000x1 (![0] : Fin 1 → Fin S500000x1.rank)
  slices_S256x528_S256x256_0_0 : S256x528.Slices ![0, 0] S256x256
  slices_S256x528_S256x256_0_256 : S256x528.Slices ![0, 256] S256x256
  slices_S256x528_S256x16_0_512 : S256x528.Slices ![0, 512] S256x16
  shapeCasts_S500000_S500000x1 : S500000.ShapeCasts S500000x1
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x16_S4000x16_0_0 : ∀ a, (![0, 0] : Fin 2 → Nat) a + S4000x16.size a ≤ S4000x16.size a
  h_S4000x16 : 0 < S4000x16.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  transposes_S256x16_p1_0_S16x256 : S256x16.Transposes [1, 0] S16x256
  broadcasts_S1x256_S4000x256 : S1x256.Broadcasts S4000x256
  transposes_S1x256_p1_0_S256x1 : S1x256.Transposes [1, 0] S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S500000x1_S500000 : S500000x1.ShapeCasts S500000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  gather_S50000x256_S500000x1_S500000x256_1_0_n_n_0_1_1256_wf : GatherDims.WF S50000x256 S500000x1 S500000x256 [1] [0] [] [0] [] 1 ![1, 256]
  dot_S4000x256_S256x256_S4000x256_1_0_0_1_n_n_wf : DotDims.WF S4000x256 S256x256 S4000x256 [1] [0] [0] [1] [] []
  dot_S4000x16_S16x256_S4000x256_1_0_0_1_n_n_wf : DotDims.WF S4000x16 S16x256 S4000x256 [1] [0] [0] [1] [] []
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S500000x256.size a
  hwx2_0 : ∀ i : grid2.Coords, EltTy.bits .f32 = 32 ∨ (Rect.block (s := S500000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S500000x256.size a
  hwx2_1 : ∀ i : grid2.Coords, EltTy.bits .f32 = 32 ∨ (Rect.block (s := S500000x256) S4000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S500000x16.size a
  hwx2_2 : ∀ i : grid2.Coords, EltTy.bits .f32 = 32 ∨ (Rect.block (s := S500000x16) S4000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S500000x1.size a
  hwx2_3 : ∀ i : grid2.Coords, EltTy.bits .f32 = 32 ∨ (Rect.block (s := S500000x1) S4000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x16.size a ≤ S256x16.size a
  hwx2_6 : ∀ i : grid2.Coords, EltTy.bits .bf16 = 32 ∨ (Rect.block (s := S256x16) S256x16.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .bf16 = 32 ∨ (Rect.block (s := S1x256) S1x256.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x1.size a ≤ S500000x1.size a
  hwx2_10 : ∀ i : grid2.Coords, EltTy.bits .f32 = 32 ∨ (Rect.block (s := S500000x1) S4000x1.size (cc2_transform_10 i) (hinb2_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x16_S16x256_S4000x256_1_0_0_1_n_n : DotDims S4000x16 S16x256 S4000x256 where
  lhsContracting := [1]
  rhsContracting := [0]
  lhsNonContracting := [0]
  rhsNonContracting := [1]
  lhsBatch := []
  rhsBatch := []
  wf := dot_S4000x16_S16x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S4000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v61) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S256x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v66) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v67) S4000x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S500000 : Shape := ⟨1, ![500000]⟩
abbrev S500000x16 : Shape := ⟨2, ![500000, 16]⟩
abbrev S256x128 : Shape := ⟨2, ![256, 128]⟩
abbrev S256 : Shape := ⟨1, ![256]⟩
abbrev S256x256 : Shape := ⟨2, ![256, 256]⟩
abbrev S256x528 : Shape := ⟨2, ![256, 528]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S800000x256 : Shape := ⟨2, ![800000, 256]⟩
abbrev S500000x1 : Shape := ⟨2, ![500000, 1]⟩
abbrev S500000x256 : Shape := ⟨2, ![500000, 256]⟩
abbrev S500000x528 : Shape := ⟨2, ![500000, 528]⟩
abbrev S528x256 : Shape := ⟨2, ![528, 256]⟩
abbrev S256x1 : Shape := ⟨2, ![256, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S500000, .i32⟩
  | .hbm, ⟨3, _⟩ => ⟨S500000, .i32⟩
  | .hbm, ⟨4, _⟩ => ⟨S500000x16, .f32⟩
  | .hbm, ⟨5, _⟩ => ⟨S500000, .f32⟩
  | .hbm, ⟨6, _⟩ => ⟨S256x128, .f32⟩
  | .hbm, ⟨7, _⟩ => ⟨S256, .f32⟩
  | .hbm, ⟨8, _⟩ => ⟨S256x128, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x528, .f32⟩
  | .hbm, ⟨13, _⟩ => ⟨S256, .f32⟩
  | .hbm, ⟨14, _⟩ => ⟨S1x256, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S128x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x256, .f32⟩
  | .hbm, ⟨80, _⟩ => ⟨S50000x256, .f32⟩
  | .hbm, ⟨81, _⟩ => ⟨S256x256, .f32⟩
  | .hbm, ⟨82, _⟩ => ⟨S50000x256, .f32⟩
  | .hbm, ⟨83, _⟩ => ⟨S1x256, .f32⟩
  | .hbm, ⟨84, _⟩ => ⟨S50000x256, .f32⟩
  | .hbm, ⟨85, _⟩ => ⟨S50000x256, .f32⟩
  | .hbm, ⟨86, _⟩ => ⟨S256x256, .f32⟩
  | .hbm, ⟨87, _⟩ => ⟨S50000x256, .f32⟩
  | .hbm, ⟨88, _⟩ => ⟨S50000x256, .f32⟩
  | .hbm, ⟨89, _⟩ => ⟨S_, .f32⟩
  | .hbm, ⟨90, _⟩ => ⟨S50000x256, .f32⟩
  | .hbm, ⟨91, _⟩ => ⟨S50000x256, .f32⟩
  | .hbm, ⟨92, _⟩ => ⟨S_, .i32⟩
  | .hbm, ⟨93, _⟩ => ⟨S500000, .i32⟩
  | .hbm, ⟨94, _⟩ => ⟨S500000, .i1⟩
  | .hbm, ⟨95, _⟩ => ⟨S_, .i32⟩
  | .hbm, ⟨96, _⟩ => ⟨S500000, .i32⟩
  | .hbm, ⟨97, _⟩ => ⟨S500000, .i32⟩
  | .hbm, ⟨98, _⟩ => ⟨S500000, .i32⟩
  | .hbm, ⟨99, _⟩ => ⟨S500000x1, .i32⟩
  | .hbm, ⟨100, _⟩ => ⟨S500000x256, .f32⟩
  | .hbm, ⟨101, _⟩ => ⟨S_, .i32⟩
  | .hbm, ⟨102, _⟩ => ⟨S500000, .i32⟩
  | .hbm, ⟨103, _⟩ => ⟨S500000, .i1⟩
  | .hbm, ⟨104, _⟩ => ⟨S_, .i32⟩
  | .hbm, ⟨105, _⟩ => ⟨S500000, .i32⟩
  | .hbm, ⟨106, _⟩ => ⟨S500000, .i32⟩
  | .hbm, ⟨107, _⟩ => ⟨S500000, .i32⟩
  | .hbm, ⟨108, _⟩ => ⟨S500000x1, .i32⟩
  | .hbm, ⟨109, _⟩ => ⟨S500000x256, .f32⟩
  | .hbm, ⟨110, _⟩ => ⟨S500000x528, .f32⟩
  | .hbm, ⟨111, _⟩ => ⟨S528x256, .f32⟩
  | .hbm, ⟨112, _⟩ => ⟨S500000x256, .f32⟩
  | .hbm, ⟨113, _⟩ => ⟨S1x256, .f32⟩
  | .hbm, ⟨114, _⟩ => ⟨S500000x256, .f32⟩
  | .hbm, ⟨115, _⟩ => ⟨S500000x256, .f32⟩
  | .hbm, ⟨116, _⟩ => ⟨S_, .f32⟩
  | .hbm, ⟨117, _⟩ => ⟨S500000x256, .f32⟩
  | .hbm, ⟨118, _⟩ => ⟨S500000x256, .f32⟩
  | .hbm, ⟨119, _⟩ => ⟨S256x1, .f32⟩
  | .hbm, ⟨120, _⟩ => ⟨S500000x1, .f32⟩
  | .hbm, ⟨121, _⟩ => ⟨S1x1, .f32⟩
  | .hbm, ⟨122, _⟩ => ⟨S500000x1, .f32⟩
  | .hbm, ⟨123, _⟩ => ⟨S500000x1, .f32⟩
  | .hbm, ⟨124, _⟩ => ⟨S500000, .f32⟩
  | .hbm, ⟨125, _⟩ => ⟨S500000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x16_S500000x528_d1 : Shape.Concatenates [S500000x256, S500000x256, S500000x16] S500000x528 1
  transposes_S256x528_S528x256_1_0 : S256x528.Transposes [1, 0] S528x256
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S1x256_S256x1_1_0 : S1x256.Transposes [1, 0] S256x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]
  dot_S500000x528_S528x256_S500000x256_1_0_0_1_n_n_wf : DotDims.WF S500000x528 S528x256 S500000x256 [1] [0] [0] [1] [] []
  dot_S500000x256_S256x1_S500000x1_1_0_0_1_n_n_wf : DotDims.WF S500000x256 S256x1 S500000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S500000x528_S528x256_S500000x256_1_0_0_1_n_n : DotDims S500000x528 S528x256 S500000x256 where
  lhsContracting := [1]
  rhsContracting := [0]
  lhsNonContracting := [0]
  rhsNonContracting := [1]
  lhsBatch := []
  rhsBatch := []
  wf := dot_S500000x528_S528x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.Spec.lean ====
/-
  What the three kernels compute, index by index over the extended reals.

  A GraphSAGE layer with mean aggregation: row n of the output is relu(agg[n,:]·Wl[j,:] + x[n,:]·Wr[j,:] + bl[j]) over
  the output features j, where agg is the neighbour mean (computed outside the kernels). The edge head: for edge p,
  the hidden vector relu(hu[p,:]·W1u[j,:] + hv[p,:]·W1v[j,:] + ea[p,:]·W1e[j,:] + b1[j]) contracted with W2, plus b2,
  plus the edge's log exposure.
-/
import proofs.«117967_j13993003450942_1_alg».proof.KernelIdeal
import Idealize.ShloMosaic.Lib.ValueIdx

noncomputable section

open scoped BigOperators

namespace Cert.Sage

open Idealize.ShloMosaic Idealize.ShloMosaic.ValueIdx Cert.KernelIdeal

/-- An array of the given shape and element type at the ideal instance (a float entry is an extended real). -/
abbrev Arr (s : Shape) (e : EltTy) : Type := (⟨s, e⟩ : BufTy).Contents (Elt Ideal)

/-- The node (row) coordinate of an index of a [50000, 256] array. -/
abbrev node (i : S50000x256.Idx) : Fin 50000 := ⟨(i 0).val, (i 0).isLt⟩
/-- The feature (column) coordinate of an index of a [50000, 256] array. -/
abbrev feat (i : S50000x256.Idx) : Fin 256 := ⟨(i 1).val, (i 1).isLt⟩
/-- The edge (row) coordinate of an index of a [500000, 1] array. -/
abbrev edge (i : S500000x1.Idx) : Fin 500000 := ⟨(i 0).val, (i 0).isLt⟩

/-- The first layer (128 input features): relu of the aggregated row against `wl`, plus the node's own row against
    `wr`, plus the bias. -/
def layer1 (agg x : Arr S50000x128 .f32) (wl wr : Arr S256x128 .bf16) (bl : Arr S1x256 .f32) : Arr S50000x256 .f32 :=
  fun i => max (((∑ k : Fin 128, agg (ix2 (node i) k) * wl (ix2 (feat i) k))
      + ∑ k : Fin 128, x (ix2 (node i) k) * wr (ix2 (feat i) k)) + bl (ix2 (0 : Fin 1) (feat i))) (0 : EReal)

/-- The second layer (256 input features): the same shape of expression. -/
def layer2 (agg x : Arr S50000x256 .f32) (wl wr : Arr S256x256 .bf16) (bl : Arr S1x256 .f32) : Arr S50000x256 .f32 :=
  fun i => max (((∑ k : Fin 256, agg (ix2 (node i) k) * wl (ix2 (feat i) k))
      + ∑ k : Fin 256, x (ix2 (node i) k) * wr (ix2 (feat i) k)) + bl (ix2 (0 : Fin 1) (feat i))) (0 : EReal)

/-- The hidden unit `j` of edge `p`: relu of the two endpoint rows and the edge attributes against their slices of the
    first weight matrix, plus the bias. -/
def hidden (hu hv : Arr S500000x256 .f32) (ea : Arr S500000x16 .f32) (w1u w1v : Arr S256x256 .bf16) (w1e : Arr S256x16 .bf16)
    (b1 : Arr S1x256 .f32) (p : Fin 500000) (j : Fin 256) : EReal :=
  max ((((∑ k : Fin 256, hu (ix2 p k) * w1u (ix2 j k)) + ∑ k : Fin 256, hv (ix2 p k) * w1v (ix2 j k))
      + ∑ k : Fin 16, ea (ix2 p k) * w1e (ix2 j k)) + b1 (ix2 (0 : Fin 1) j)) (0 : EReal)

/-- The edge head: the hidden vector against `w2`, plus `b2`, plus the edge's log exposure. -/
def head (hu hv : Arr S500000x256 .f32) (ea : Arr S500000x16 .f32) (loge : Arr S500000x1 .f32)
    (w1u w1v : Arr S256x256 .bf16) (w1e : Arr S256x16 .bf16) (b1 : Arr S1x256 .f32) (w2 : Arr S1x256 .bf16) (b2 : Arr S1x1 .f32) :
    Arr S500000x1 .f32 :=
  fun i => ((∑ j : Fin 256, hidden hu hv ea w1u w1v w1e b1 (edge i) j * w2 (ix2 (0 : Fin 1) j))
      + b2 (ix2 (0 : Fin 1) (0 : Fin 1))) + loge (ix2 (edge i) (0 : Fin 1))

end Cert.Sage

end
-- ==== Proof.HostK.lean ====
/-
  The host-side steps between the kernels, as functions of arrays at the ideal instance: the two rows of the edge list,
  the wrap of a possibly negative index, the in-degree count clamped below by one, the neighbour mean (gather the source
  rows, sum them into their destination rows, divide by the count), and the row gather of the node features at the edge
  endpoints. The mean and the gathers are never opened: both programs apply the same ones, and what is proved is that
  they are applied to equal arrays.
-/
import proofs.«117967_j13993003450942_1_alg».proof.Proof.Gen.KernelIdeal
import Idealize.ShloMosaic.PureOps.Ideal

noncomputable section

namespace Cert.Sage

open Idealize.ShloMosaic Cert.KernelIdeal Cert.KernelIdeal.Facts₀ Cert.KernelIdeal.Facts

/-- An array of the given shape and element type at the ideal instance. -/
abbrev HArr (s : Shape) (e : EltTy) : Type := (⟨s, e⟩ : BufTy).Contents (Elt Ideal)

/-- Row 0 of the edge list: the source node of every edge. -/
def src (x1 : HArr S2x800000 .i32) : HArr S800000 .i32 :=
  shapeCast S800000 (extractStridedSlice S1x800000 ![0, 0] x1 slices_S2x800000_S1x800000_0_0) shapeCasts_S1x800000_S800000
/-- Row 1 of the edge list: the destination node of every edge. -/
def dst (x1 : HArr S2x800000 .i32) : HArr S800000 .i32 :=
  shapeCast S800000 (extractStridedSlice S1x800000 ![1, 0] x1 slices_S2x800000_S1x800000_1_0) shapeCasts_S1x800000_S800000
/-- A node index per edge as a column of start indices, a negative one wrapped by the node count. -/
def wrapE (e : HArr S800000 .i32) : HArr S800000x1 .i32 :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)
/-- A node index per edge as a column of scatter indices. -/
def colE (d : HArr S800000 .i32) : HArr S800000x1 .i32 := broadcastInDim S800000x1 ![0] bcast_S800000_S800000x1_0 d
/-- The in-degree of every node, at least one, as a column. -/
def cnt (d : HArr S800000 .i32) : HArr S50000x1 .f32 :=
  broadcastInDim S50000x1 ![0] bcast_S50000_S50000x1_0
    (maximumf (F := Ideal)
      (Host.scatterAdd (F := Ideal) scatter_S50000_S800000x1_S800000_n_0_0_1
        (broadcastInDim S50000 ![] bcast_S_S50000 (constant (F := Ideal) S_ .f32 0x00000000#32)) (colE d)
        (broadcastInDim S800000 ![] bcast_S_S800000 (constant (F := Ideal) S_ .f32 0x3F800000#32)))
      (broadcastInDim S50000 ![] bcast_S_S50000 (constant (F := Ideal) S_ .f32 0x3F800000#32)))
/-- The neighbour mean of 128-feature rows. -/
def mean128 (x : HArr S50000x128 .f32) (s d : HArr S800000 .i32) (cn : HArr S50000x1 .f32) : HArr S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (colE d)
      (Host.gather gather_S50000x128_S800000x1_S800000x128_1_0_n_n_0_1_1128 x (wrapE s)))
    (broadcastInDim S50000x128 ![0, 1] bcast_S50000x1_S50000x128_0_1 cn)
/-- The neighbour mean of 256-feature rows. -/
def mean256 (h : HArr S50000x256 .f32) (s d : HArr S800000 .i32) (cn : HArr S50000x1 .f32) : HArr S50000x256 .f32 :=
  Host.divf (F := Ideal)
    (Host.scatterAdd (F := Ideal) scatter_S50000x256_S800000x1_S800000x256_1_0_0_1
      (broadcastInDim S50000x256 ![] bcast_S_S50000x256 (constant (F := Ideal) S_ .f32 0x00000000#32)) (colE d)
      (Host.gather gather_S50000x256_S800000x1_S800000x256_1_0_n_n_0_1_1256 h (wrapE s)))
    (broadcastInDim S50000x256 ![0, 1] bcast_S50000x1_S50000x256_0_1 cn)
/-- The node features' rows at one endpoint of every scored edge (a negative index wrapped by the node count). -/
def rowsAt (h : HArr S50000x256 .f32) (e : HArr S500000 .i32) : HArr S500000x256 .f32 :=
  Host.gather gather_S50000x256_S500000x1_S500000x256_1_0_n_n_0_1_1256 h
    (broadcastInDim S500000x1 ![0] bcast_S500000_S500000x1_0
      (select (cmpi .slt e (broadcastInDim S500000 ![] bcast_S_S500000 (constantI S_ 32 0#32)))
        (addi e (broadcastInDim S500000 ![] bcast_S_S500000 (constantI S_ 32 50000#32))) e))

/-- A weight matrix at the matrix unit's input format (the identity on extended reals). -/
def bf16 {s : Shape} (x : HArr s .f32) : HArr s .bf16 := truncf (F := Ideal) .bf16 x bitsLt_bf16_f32
/-- A bias vector as one row. -/
def row256 (b : HArr S256 .f32) : HArr S1x256 .f32 := shapeCast S1x256 b shapeCasts_S256_S1x256
/-- The last bias as a one-by-one array. -/
def one1 (b : HArr S1 .f32) : HArr S1x1 .f32 := shapeCast S1x1 b shapeCasts_S1_S1x1
/-- The log exposure as a column. -/
def col5 (x5 : HArr S500000 .f32) : HArr S500000x1 .f32 := shapeCast S500000x1 x5 shapeCasts_S500000_S500000x1
/-- The head's one-column output as a vector. -/
def flat5 (o : HArr S500000x1 .f32) : HArr S500000 .f32 := shapeCast S500000 o shapeCasts_S500000x1_S500000
/-- Columns 0 … 255 of the first weight matrix of the head: the part that meets the first endpoint's features. -/
def w1u (x12 : HArr S256x528 .f32) : HArr S256x256 .f32 := extractStridedSlice S256x256 ![0, 0] x12 slices_S256x528_S256x256_0_0
/-- Columns 256 … 511: the part that meets the second endpoint's features. -/
def w1v (x12 : HArr S256x528 .f32) : HArr S256x256 .f32 := extractStridedSlice S256x256 ![0, 256] x12 slices_S256x528_S256x256_0_256
/-- Columns 512 … 527: the part that meets the edge attributes. -/
def w1e (x12 : HArr S256x528 .f32) : HArr S256x16 .f32 := extractStridedSlice S256x16 ![0, 512] x12 slices_S256x528_S256x16_0_512

end Cert.Sage

end
-- ==== Proof.KFun.lean ====
/-
  The kernel program's result as one function of @main's sixteen arguments: the neighbour mean, the first layer, the
  mean of its output, the second layer, the rows of its output at the two endpoints of every scored edge, the edge
  head, flattened.
-/
import proofs.«117967_j13993003450942_1_alg».proof.Proof.Spec
import proofs.«117967_j13993003450942_1_alg».proof.Proof.HostK

noncomputable section

namespace Cert.Sage

open Idealize.ShloMosaic Cert.KernelIdeal

/-- The first layer's output of the arguments. -/
def hidden1 (x0 : Arr S50000x128 .f32) (x1 : Arr S2x800000 .i32) (x6 : Arr S256x128 .f32) (x7 : Arr S256 .f32) (x8 : Arr S256x128 .f32) :
    Arr S50000x256 .f32 :=
  layer1 (mean128 x0 (src x1) (dst x1) (cnt (dst x1))) x0 (bf16 x6) (bf16 x8) (row256 x7)

/-- The second layer's output of the arguments. -/
def hidden2 (x0 : Arr S50000x128 .f32) (x1 : Arr S2x800000 .i32) (x6 : Arr S256x128 .f32) (x7 : Arr S256 .f32) (x8 : Arr S256x128 .f32)
    (x9 : Arr S256x256 .f32) (x10 : Arr S256 .f32) (x11 : Arr S256x256 .f32) : Arr S50000x256 .f32 :=
  layer2 (mean256 (hidden1 x0 x1 x6 x7 x8) (src x1) (dst x1) (cnt (dst x1))) (hidden1 x0 x1 x6 x7 x8) (bf16 x9) (bf16 x11) (row256 x10)

/-- The program's result of the arguments. -/
def kernelOut (x0 : Arr S50000x128 .f32) (x1 : Arr S2x800000 .i32) (x2 x3 : Arr S500000 .i32) (x4 : Arr S500000x16 .f32) (x5 : Arr S500000 .f32)
    (x6 : Arr S256x128 .f32) (x7 : Arr S256 .f32) (x8 : Arr S256x128 .f32) (x9 : Arr S256x256 .f32) (x10 : Arr S256 .f32) (x11 : Arr S256x256 .f32)
    (x12 : Arr S256x528 .f32) (x13 : Arr S256 .f32) (x14 : Arr S1x256 .f32) (x15 : Arr S1 .f32) : Arr S500000 .f32 :=
  flat5 (head (rowsAt (hidden2 x0 x1 x6 x7 x8 x9 x10 x11) x2) (rowsAt (hidden2 x0 x1 x6 x7 x8 x9 x10 x11) x3) x4 (col5 x5)
    (bf16 (w1u x12)) (bf16 (w1v x12)) (bf16 (w1e x12)) (row256 x13) (bf16 x14) (one1 x15))

end Cert.Sage

end
-- ==== Proof.KHost1.lean ====
/-
  The kernel program's buffers at the first region: what the host stretch before it leaves in the region's five operand
  arrays, read back to the arguments; and what the region leaves in its output array (the first layer of those).
-/
import proofs.«117967_j13993003450942_1_alg».proof.Proof.Gen.KernelIdeal.Frame
import proofs.«117967_j13993003450942_1_alg».proof.Proof.KFun
import Idealize.ShloMosaic.Lib.StableHlo.Run

set_option maxRecDepth 16384

noncomputable section

namespace Cert.Sage.KHost

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg)

/-- Argument 0 of @main on core `c`, as launched. -/
abbrev a0 (c : Dev nD) : Arr S50000x128 .f32 := m ((c : Thread nD τ).loc main_arg0)
/-- Argument 1 of @main on core `c`, as launched. -/
abbrev a1 (c : Dev nD) : Arr S2x800000 .i32 := m ((c : Thread nD τ).loc main_arg1)
/-- Argument 2 of @main on core `c`, as launched. -/
abbrev a2 (c : Dev nD) : Arr S500000 .i32 := m ((c : Thread nD τ).loc main_arg2)
/-- Argument 3 of @main on core `c`, as launched. -/
abbrev a3 (c : Dev nD) : Arr S500000 .i32 := m ((c : Thread nD τ).loc main_arg3)
/-- Argument 4 of @main on core `c`, as launched. -/
abbrev a4 (c : Dev nD) : Arr S500000x16 .f32 := m ((c : Thread nD τ).loc main_arg4)
/-- Argument 5 of @main on core `c`, as launched. -/
abbrev a5 (c : Dev nD) : Arr S500000 .f32 := m ((c : Thread nD τ).loc main_arg5)
/-- Argument 6 of @main on core `c`, as launched. -/
abbrev a6 (c : Dev nD) : Arr S256x128 .f32 := m ((c : Thread nD τ).loc main_arg6)
/-- Argument 7 of @main on core `c`, as launched. -/
abbrev a7 (c : Dev nD) : Arr S256 .f32 := m ((c : Thread nD τ).loc main_arg7)
/-- Argument 8 of @main on core `c`, as launched. -/
abbrev a8 (c : Dev nD) : Arr S256x128 .f32 := m ((c : Thread nD τ).loc main_arg8)
/-- Argument 9 of @main on core `c`, as launched. -/
abbrev a9 (c : Dev nD) : Arr S256x256 .f32 := m ((c : Thread nD τ).loc main_arg9)
/-- Argument 10 of @main on core `c`, as launched. -/
abbrev a10 (c : Dev nD) : Arr S256 .f32 := m ((c : Thread nD τ).loc main_arg10)
/-- Argument 11 of @main on core `c`, as launched. -/
abbrev a11 (c : Dev nD) : Arr S256x256 .f32 := m ((c : Thread nD τ).loc main_arg11)
/-- Argument 12 of @main on core `c`, as launched. -/
abbrev a12 (c : Dev nD) : Arr S256x528 .f32 := m ((c : Thread nD τ).loc main_arg12)
/-- Argument 13 of @main on core `c`, as launched. -/
abbrev a13 (c : Dev nD) : Arr S256 .f32 := m ((c : Thread nD τ).loc main_arg13)
/-- Argument 14 of @main on core `c`, as launched. -/
abbrev a14 (c : Dev nD) : Arr S1x256 .f32 := m ((c : Thread nD τ).loc main_arg14)
/-- Argument 15 of @main on core `c`, as launched. -/
abbrev a15 (c : Dev nD) : Arr S1 .f32 := m ((c : Thread nD τ).loc main_arg15)

/-! ## After the first host stretch -/

set_option maxHeartbeats 8000000 in
theorem W1_v22 (c : Dev nD) : W1 m ρ c (Proc.devRef .tc main_v22) = mean128 (a0 m c) (src (a1 m c)) (dst (a1 m c)) (cnt (dst (a1 m c))) := by
  show StableHlo.after hostOps0 (W0 m ρ c) (Proc.devRef .tc main_v22) = _
  after_results_simp <;> rfl
set_option maxHeartbeats 8000000 in
theorem W1_arg0 (c : Dev nD) : W1 m ρ c (Proc.devRef .tc main_arg0) = a0 m c := by
  show StableHlo.after hostOps0 (W0 m ρ c) (Proc.devRef .tc main_arg0) = _
  after_results_simp <;> rfl
set_option maxHeartbeats 8000000 in
theorem W1_v23 (c : Dev nD) : W1 m ρ c (Proc.devRef .tc main_v23) = bf16 (a6 m c) := by
  show StableHlo.after hostOps0 (W0 m ρ c) (Proc.devRef .tc main_v23) = _
  after_results_simp <;> rfl
set_option maxHeartbeats 8000000 in
theorem W1_v24 (c : Dev nD) : W1 m ρ c (Proc.devRef .tc main_v24) = bf16 (a8 m c) := by
  show StableHlo.after hostOps0 (W0 m ρ c) (Proc.devRef .tc main_v24) = _
  after_results_simp <;> rfl
set_option maxHeartbeats 8000000 in
theorem W1_v25 (c : Dev nD) : W1 m ρ c (Proc.devRef .tc main_v25) = row256 (a7 m c) := by
  show StableHlo.after hostOps0 (W0 m ρ c) (Proc.devRef .tc main_v25) = _
  after_results_simp <;> rfl
set_option maxHeartbeats 8000000 in
theorem W1_v1 (c : Dev nD) : W1 m ρ c (Proc.devRef .tc main_v1) = src (a1 m c) := by
  show StableHlo.after hostOps0 (W0 m ρ c) (Proc.devRef .tc main_v1) = _
  after_results_simp <;> rfl
set_option maxHeartbeats 8000000 in
theorem W1_v3 (c : Dev nD) : W1 m ρ c (Proc.devRef .tc main_v3) = dst (a1 m c) := by
  show StableHlo.after hostOps0 (W0 m ρ c) (Proc.devRef .tc main_v3) = _
  after_results_simp <;> rfl
set_option maxHeartbeats 8000000 in
theorem W1_v10 (c : Dev nD) : W1 m ρ c (Proc.devRef .tc main_v10) = cnt (dst (a1 m c)) := by
  show StableHlo.after hostOps0 (W0 m ρ c) (Proc.devRef .tc main_v10) = _
  after_results_simp <;> rfl
set_option maxHeartbeats 8000000 in
theorem W1_arg2 (c : Dev nD) : W1 m ρ c (Proc.devRef .tc main_arg2) = a2 m c := by
  show StableHlo.after hostOps0 (W0 m ρ c) (Proc.devRef .tc main_arg2) = _
  after_results_simp <;> rfl
set_option maxHeartbeats 8000000 in
theorem W1_arg3 (c : Dev nD) : W1 m ρ c (Proc.devRef .tc main_arg3) = a3 m c := by
  show StableHlo.after hostOps0 (W0 m ρ c) (Proc.devRef .tc main_arg3) = _
  after_results_simp <;> rfl
set_option maxHeartbeats 8000000 in
theorem W1_arg4 (c : Dev nD) : W1 m ρ c (Proc.devRef .tc main_arg4) = a4 m c := by
  show StableHlo.after hostOps0 (W0 m ρ c) (Proc.devRef .tc main_arg4) = _
  after_results_simp <;> rfl
set_option maxHeartbeats 8000000 in
theorem W1_arg5 (c : Dev nD) : W1 m ρ c (Proc.devRef .tc main_arg5) = a5 m c := by
  show StableHlo.after hostOps0 (W0 m ρ c) (Proc.devRef .tc main_arg5) = _
  after_results_simp <;> rfl
set_option maxHeartbeats 8000000 in
theorem W1_arg9 (c : Dev nD) : W1 m ρ c (Proc.devRef .tc main_arg9) = a9 m c := by
  show StableHlo.after hostOps0 (W0 m ρ c) (Proc.devRef .tc main_arg9) = _
  after_results_simp <;> rfl
set_option maxHeartbeats 8000000 in
theorem W1_arg10 (c : Dev nD) : W1 m ρ c (Proc.devRef .tc main_arg10) = a10 m c := by
  show StableHlo.after hostOps0 (W0 m ρ c) (Proc.devRef .tc main_arg10) = _
  after_results_simp <;> rfl
set_option maxHeartbeats 8000000 in
theorem W1_arg11 (c : Dev nD) : W1 m ρ c (Proc.devRef .tc main_arg11) = a11 m c := by
  show StableHlo.after hostOps0 (W0 m ρ c) (Proc.devRef .tc main_arg11) = _
  after_results_simp <;> rfl
set_option maxHeartbeats 8000000 in
theorem W1_arg12 (c : Dev nD) : W1 m ρ c (Proc.devRef .tc main_arg12) = a12 m c := by
  show StableHlo.after hostOps0 (W0 m ρ c) (Proc.devRef .tc main_arg12) = _
  after_results_simp <;> rfl
set_option maxHeartbeats 8000000 in
theorem W1_arg13 (c : Dev nD) : W1 m ρ c (Proc.devRef .tc main_arg13) = a13 m c := by
  show StableHlo.after hostOps0 (W0 m ρ c) (Proc.devRef .tc main_arg13) = _
  after_results_simp <;> rfl
set_option maxHeartbeats 8000000 in
theorem W1_arg14 (c : Dev nD) : W1 m ρ c (Proc.devRef .tc main_arg14) = a14 m c := by
  show StableHlo.after hostOps0 (W0 m ρ c) (Proc.devRef .tc main_arg14) = _
  after_results_simp <;> rfl
set_option maxHeartbeats 8000000 in
theorem W1_arg15 (c : Dev nD) : W1 m ρ c (Proc.devRef .tc main_arg15) = a15 m c := by
  show StableHlo.after hostOps0 (W0 m ρ c) (Proc.devRef .tc main_arg15) = _
  after_results_simp <;> rfl

/-! ## After the first region -/

/-- The first region's output array holds the first layer of the arguments, given that the region computes the layer of
    its operand arrays (`H0`: the region's value, proved apart). -/
theorem W2_v26 (H0 : ∀ c : Dev nD, (dat0 (F := Ideal) (V1 m ρ) c).arrAt 5 cfg0.N
      = layer1 (V1 m ρ c main_v22) (V1 m ρ c main_arg0) (V1 m ρ c main_v23) (V1 m ρ c main_v24) (V1 m ρ c main_v25)) (c : Dev nD) :
    W2 m ρ c (Proc.devRef .tc main_v26) = hidden1 (a0 m c) (a1 m c) (a6 m c) (a7 m c) (a8 m c) := by
  refine (W2_arr m ρ c 5).trans ((H0 c).trans ?_)
  show layer1 (W1 m ρ c (Proc.devRef .tc main_v22)) (W1 m ρ c (Proc.devRef .tc main_arg0)) (W1 m ρ c (Proc.devRef .tc main_v23))
    (W1 m ρ c (Proc.devRef .tc main_v24)) (W1 m ρ c (Proc.devRef .tc main_v25)) = _
  rw [W1_v22, W1_arg0, W1_v23, W1_v24, W1_v25]
  rfl

theorem W2_v1 (c : Dev nD) : W2 m ρ c (Proc.devRef .tc main_v1) = src (a1 m c) :=
  (W2_of_ne m ρ c main_v1 (by decide)).trans (W1_v1 m ρ c)
theorem W2_v3 (c : Dev nD) : W2 m ρ c (Proc.devRef .tc main_v3) = dst (a1 m c) :=
  (W2_of_ne m ρ c main_v3 (by decide)).trans (W1_v3 m ρ c)
theorem W2_v10 (c : Dev nD) : W2 m ρ c (Proc.devRef .tc main_v10) = cnt (dst (a1 m c)) :=
  (W2_of_ne m ρ c main_v10 (by decide)).trans (W1_v10 m ρ c)
theorem W2_arg2 (c : Dev nD) : W2 m ρ c (Proc.devRef .tc main_arg2) = a2 m c :=
  (W2_of_ne m ρ c main_arg2 (by decide)).trans (W1_arg2 m ρ c)
theorem W2_arg3 (c : Dev nD) : W2 m ρ c (Proc.devRef .tc main_arg3) = a3 m c :=
  (W2_of_ne m ρ c main_arg3 (by decide)).trans (W1_arg3 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg9 (c : Dev nD) : W2 m ρ c (Proc.devRef .tc main_arg9) = a9 m c :=
  (W2_of_ne m ρ c main_arg9 (by decide)).trans (W1_arg9 m ρ c)
theorem W2_arg10 (c : Dev nD) : W2 m ρ c (Proc.devRef .tc main_arg10) = a10 m c :=
  (W2_of_ne m ρ c main_arg10 (by decide)).trans (W1_arg10 m ρ c)
theorem W2_arg11 (c : Dev nD) : W2 m ρ c (Proc.devRef .tc main_arg11) = a11 m c :=
  (W2_of_ne m ρ c main_arg11 (by decide)).trans (W1_arg11 m ρ c)
theorem W2_arg12 (c : Dev nD) : W2 m ρ c (Proc.devRef .tc main_arg12) = a12 m c :=
  (W2_of_ne m ρ c main_arg12 (by decide)).trans (W1_arg12 m ρ c)
theorem W2_arg13 (c : Dev nD) : W2 m ρ c (Proc.devRef .tc main_arg13) = a13 m c :=
  (W2_of_ne m ρ c main_arg13 (by decide)).trans (W1_arg13 m ρ c)
theorem W2_arg14 (c : Dev nD) : W2 m ρ c (Proc.devRef .tc main_arg14) = a14 m c :=
  (W2_of_ne m ρ c main_arg14 (by decide)).trans (W1_arg14 m ρ c)
theorem W2_arg15 (c : Dev nD) : W2 m ρ c (Proc.devRef .tc main_arg15) = a15 m c :=
  (W2_of_ne m ρ c main_arg15 (by decide)).trans (W1_arg15 m ρ c)

end Cert.Sage.KHost

end
-- ==== Proof.KHost2.lean ====
/-
  The kernel program's buffers at the second region: what the host stretch before it leaves in the region's five operand
  arrays (the neighbour mean of the first layer's output, that output, the second layer's weights and bias), read back to
  the arguments; and what the region leaves in its output array (the second layer of those).
-/
import proofs.«117967_j13993003450942_1_alg».proof.Proof.KHost1

set_option maxRecDepth 16384

noncomputable section

namespace Cert.Sage.KHost

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg)

/-- The first region computes the first layer of its operand arrays (its value, proved apart). -/
abbrev Hyp0 : Prop := ∀ c : Dev nD, (dat0 (F := Ideal) (V1 m ρ) c).arrAt 5 cfg0.N
  = layer1 (V1 m ρ c main_v22) (V1 m ρ c main_arg0) (V1 m ρ c main_v23) (V1 m ρ c main_v24) (V1 m ρ c main_v25)

/-- The second region computes the second layer of its operand arrays (its value, proved apart). -/
abbrev Hyp1 : Prop := ∀ c : Dev nD, (dat1 (F := Ideal) (V3 m ρ) c).arrAt 5 cfg1.N
  = layer2 (V3 m ρ c main_v38) (V3 m ρ c main_v26) (V3 m ρ c main_v39) (V3 m ρ c main_v40) (V3 m ρ c main_v41)

/-! ## After the second host stretch -/

set_option maxHeartbeats 8000000 in
/-- The neighbour mean of the first layer's output. -/
theorem W3_v38 (H0 : Hyp0 m ρ) (c : Dev nD) : W3 m ρ c (Proc.devRef .tc main_v38)
    = mean256 (hidden1 (a0 m c) (a1 m c) (a6 m c) (a7 m c) (a8 m c)) (src (a1 m c)) (dst (a1 m c)) (cnt (dst (a1 m c))) := by
  show StableHlo.after hostOps1 (W2 m ρ c) (Proc.devRef .tc main_v38) = _
  after_results_simp
  rw [W2_v26 m ρ H0 c, W2_v1 m ρ c, W2_v3 m ρ c, W2_v10 m ρ c]
  rfl

set_option maxHeartbeats 8000000 in
theorem W3_v26 (H0 : Hyp0 m ρ) (c : Dev nD) : W3 m ρ c (Proc.devRef .tc main_v26)
    = hidden1 (a0 m c) (a1 m c) (a6 m c) (a7 m c) (a8 m c) := by
  refine Eq.trans ?_ (W2_v26 m ρ H0 c)
  show StableHlo.after hostOps1 (W2 m ρ c) (Proc.devRef .tc main_v26) = _
  after_results_simp <;> rfl

set_option maxHeartbeats 8000000 in
theorem W3_v39 (c : Dev nD) : W3 m ρ c (Proc.devRef .tc main_v39) = bf16 (a9 m c) := by
  show StableHlo.after hostOps1 (W2 m ρ c) (Proc.devRef .tc main_v39) = _
  after_results_simp
  rw [W2_arg9 m ρ c]
  rfl

set_option maxHeartbeats 8000000 in
theorem W3_v40 (c : Dev nD) : W3 m ρ c (Proc.devRef .tc main_v40) = bf16 (a11 m c) := by
  show StableHlo.after hostOps1 (W2 m ρ c) (Proc.devRef .tc main_v40) = _
  after_results_simp
  rw [W2_arg11 m ρ c]
  rfl

set_option maxHeartbeats 8000000 in
theorem W3_v41 (c : Dev nD) : W3 m ρ c (Proc.devRef .tc main_v41) = row256 (a10 m c) := by
  show StableHlo.after hostOps1 (W2 m ρ c) (Proc.devRef .tc main_v41) = _
  after_results_simp
  rw [W2_arg10 m ρ c]
  rfl

set_option maxHeartbeats 8000000 in
theorem W3_arg2 (c : Dev nD) : W3 m ρ c (Proc.devRef .tc main_arg2) = a2 m c := by
  refine Eq.trans ?_ (W2_arg2 m ρ c)
  show StableHlo.after hostOps1 (W2 m ρ c) (Proc.devRef .tc main_arg2) = _
  after_results_simp <;> rfl
set_option maxHeartbeats 8000000 in
theorem W3_arg3 (c : Dev nD) : W3 m ρ c (Proc.devRef .tc main_arg3) = a3 m c := by
  refine Eq.trans ?_ (W2_arg3 m ρ c)
  show StableHlo.after hostOps1 (W2 m ρ c) (Proc.devRef .tc main_arg3) = _
  after_results_simp <;> rfl
set_option maxHeartbeats 8000000 in
theorem W3_arg4 (c : Dev nD) : W3 m ρ c (Proc.devRef .tc main_arg4) = a4 m c := by
  refine Eq.trans ?_ (W2_arg4 m ρ c)
  show StableHlo.after hostOps1 (W2 m ρ c) (Proc.devRef .tc main_arg4) = _
  after_results_simp <;> rfl
set_option maxHeartbeats 8000000 in
theorem W3_arg5 (c : Dev nD) : W3 m ρ c (Proc.devRef .tc main_arg5) = a5 m c := by
  refine Eq.trans ?_ (W2_arg5 m ρ c)
  show StableHlo.after hostOps1 (W2 m ρ c) (Proc.devRef .tc main_arg5) = _
  after_results_simp <;> rfl
set_option maxHeartbeats 8000000 in
theorem W3_arg12 (c : Dev nD) : W3 m ρ c (Proc.devRef .tc main_arg12) = a12 m c := by
  refine Eq.trans ?_ (W2_arg12 m ρ c)
  show StableHlo.after hostOps1 (W2 m ρ c) (Proc.devRef .tc main_arg12) = _
  after_results_simp <;> rfl
set_option maxHeartbeats 8000000 in
theorem W3_arg13 (c : Dev nD) : W3 m ρ c (Proc.devRef .tc main_arg13) = a13 m c := by
  refine Eq.trans ?_ (W2_arg13 m ρ c)
  show StableHlo.after hostOps1 (W2 m ρ c) (Proc.devRef .tc main_arg13) = _
  after_results_simp <;> rfl
set_option maxHeartbeats 8000000 in
theorem W3_arg14 (c : Dev nD) : W3 m ρ c (Proc.devRef .tc main_arg14) = a14 m c := by
  refine Eq.trans ?_ (W2_arg14 m ρ c)
  show StableHlo.after hostOps1 (W2 m ρ c) (Proc.devRef .tc main_arg14) = _
  after_results_simp <;> rfl
set_option maxHeartbeats 8000000 in
theorem W3_arg15 (c : Dev nD) : W3 m ρ c (Proc.devRef .tc main_arg15) = a15 m c := by
  refine Eq.trans ?_ (W2_arg15 m ρ c)
  show StableHlo.after hostOps1 (W2 m ρ c) (Proc.devRef .tc main_arg15) = _
  after_results_simp <;> rfl

/-! ## After the second region -/

/-- The second region's output array holds the second layer of the arguments. -/
theorem W4_v42 (H0 : Hyp0 m ρ) (H1 : Hyp1 m ρ) (c : Dev nD) : W4 m ρ c (Proc.devRef .tc main_v42)
    = hidden2 (a0 m c) (a1 m c) (a6 m c) (a7 m c) (a8 m c) (a9 m c) (a10 m c) (a11 m c) := by
  refine (W4_arr m ρ c 5).trans ((H1 c).trans ?_)
  show layer2 (W3 m ρ c (Proc.devRef .tc main_v38)) (W3 m ρ c (Proc.devRef .tc main_v26)) (W3 m ρ c (Proc.devRef .tc main_v39))
    (W3 m ρ c (Proc.devRef .tc main_v40)) (W3 m ρ c (Proc.devRef .tc main_v41)) = _
  rw [W3_v38 m ρ H0 c, W3_v26 m ρ H0 c, W3_v39, W3_v40, W3_v41]
  rfl

theorem W4_arg2 (c : Dev nD) : W4 m ρ c (Proc.devRef .tc main_arg2) = a2 m c :=
  (W4_of_ne m ρ c main_arg2 (by decide)).trans (W3_arg2 m ρ c)
theorem W4_arg3 (c : Dev nD) : W4 m ρ c (Proc.devRef .tc main_arg3) = a3 m c :=
  (W4_of_ne m ρ c main_arg3 (by decide)).trans (W3_arg3 m ρ c)
theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)
theorem W4_arg12 (c : Dev nD) : W4 m ρ c (Proc.devRef .tc main_arg12) = a12 m c :=
  (W4_of_ne m ρ c main_arg12 (by decide)).trans (W3_arg12 m ρ c)
theorem W4_arg13 (c : Dev nD) : W4 m ρ c (Proc.devRef .tc main_arg13) = a13 m c :=
  (W4_of_ne m ρ c main_arg13 (by decide)).trans (W3_arg13 m ρ c)
theorem W4_arg14 (c : Dev nD) : W4 m ρ c (Proc.devRef .tc main_arg14) = a14 m c :=
  (W4_of_ne m ρ c main_arg14 (by decide)).trans (W3_arg14 m ρ c)
theorem W4_arg15 (c : Dev nD) : W4 m ρ c (Proc.devRef .tc main_arg15) = a15 m c :=
  (W4_of_ne m ρ c main_arg15 (by decide)).trans (W3_arg15 m ρ c)

end Cert.Sage.KHost

end
-- ==== Proof.KHost3.lean ====
/-
  The kernel program's buffers at the third region and at the return: what the host stretch before the region leaves in
  its ten operand arrays (the second layer's rows at the two endpoints of every scored edge, the edge attributes, the log
  exposure as a column, the three column ranges of the first weight matrix, the biases, the second weight row), read back
  to the arguments; what the region leaves in its output array (the edge head of those); and the result buffer, that
  column flattened: the program's result as one function of the arguments.
-/
import proofs.«117967_j13993003450942_1_alg».proof.Proof.KHost2

set_option maxRecDepth 16384

noncomputable section

namespace Cert.Sage.KHost

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg)

/-- The third region computes the edge head of its operand arrays (its value, proved apart). -/
abbrev Hyp2 : Prop := ∀ c : Dev nD, (dat2 (F := Ideal) (V5 m ρ) c).arrAt 10 cfg2.N
  = head (V5 m ρ c main_v49) (V5 m ρ c main_v56) (V5 m ρ c main_arg4) (V5 m ρ c main_v60) (V5 m ρ c main_v61) (V5 m ρ c main_v62)
      (V5 m ρ c main_v63) (V5 m ρ c main_v65) (V5 m ρ c main_v64) (V5 m ρ c main_v66)

/-! ## After the third host stretch -/

set_option maxHeartbeats 8000000 in
/-- The second layer's rows at the first endpoint of every scored edge. -/
theorem W5_v49 (H0 : Hyp0 m ρ) (H1 : Hyp1 m ρ) (c : Dev nD) : W5 m ρ c (Proc.devRef .tc main_v49)
    = rowsAt (hidden2 (a0 m c) (a1 m c) (a6 m c) (a7 m c) (a8 m c) (a9 m c) (a10 m c) (a11 m c)) (a2 m c) := by
  show StableHlo.after hostOps2 (W4 m ρ c) (Proc.devRef .tc main_v49) = _
  after_results_simp
  rw [W4_v42 m ρ H0 H1 c, W4_arg2 m ρ c]
  rfl

set_option maxHeartbeats 8000000 in
/-- The second layer's rows at the second endpoint of every scored edge. -/
theorem W5_v56 (H0 : Hyp0 m ρ) (H1 : Hyp1 m ρ) (c : Dev nD) : W5 m ρ c (Proc.devRef .tc main_v56)
    = rowsAt (hidden2 (a0 m c) (a1 m c) (a6 m c) (a7 m c) (a8 m c) (a9 m c) (a10 m c) (a11 m c)) (a3 m c) := by
  show StableHlo.after hostOps2 (W4 m ρ c) (Proc.devRef .tc main_v56) = _
  after_results_simp
  rw [W4_v42 m ρ H0 H1 c, W4_arg3 m ρ c]
  rfl

set_option maxHeartbeats 8000000 in
theorem W5_arg4 (c : Dev nD) : W5 m ρ c (Proc.devRef .tc main_arg4) = a4 m c := by
  refine Eq.trans ?_ (W4_arg4 m ρ c)
  show StableHlo.after hostOps2 (W4 m ρ c) (Proc.devRef .tc main_arg4) = _
  after_results_simp <;> rfl

set_option maxHeartbeats 8000000 in
theorem W5_v60 (c : Dev nD) : W5 m ρ c (Proc.devRef .tc main_v60) = col5 (a5 m c) := by
  show StableHlo.after hostOps2 (W4 m ρ c) (Proc.devRef .tc main_v60) = _
  after_results_simp
  rw [W4_arg5 m ρ c]
  rfl

set_option maxHeartbeats 8000000 in
theorem W5_v61 (c : Dev nD) : W5 m ρ c (Proc.devRef .tc main_v61) = bf16 (w1u (a12 m c)) := by
  show StableHlo.after hostOps2 (W4 m ρ c) (Proc.devRef .tc main_v61) = _
  after_results_simp
  rw [W4_arg12 m ρ c]
  rfl

set_option maxHeartbeats 8000000 in
theorem W5_v62 (c : Dev nD) : W5 m ρ c (Proc.devRef .tc main_v62) = bf16 (w1v (a12 m c)) := by
  show StableHlo.after hostOps2 (W4 m ρ c) (Proc.devRef .tc main_v62) = _
  after_results_simp
  rw [W4_arg12 m ρ c]
  rfl

set_option maxHeartbeats 8000000 in
theorem W5_v63 (c : Dev nD) : W5 m ρ c (Proc.devRef .tc main_v63) = bf16 (w1e (a12 m c)) := by
  show StableHlo.after hostOps2 (W4 m ρ c) (Proc.devRef .tc main_v63) = _
  after_results_simp
  rw [W4_arg12 m ρ c]
  rfl

set_option maxHeartbeats 8000000 in
theorem W5_v65 (c : Dev nD) : W5 m ρ c (Proc.devRef .tc main_v65) = row256 (a13 m c) := by
  show StableHlo.after hostOps2 (W4 m ρ c) (Proc.devRef .tc main_v65) = _
  after_results_simp
  rw [W4_arg13 m ρ c]
  rfl

set_option maxHeartbeats 8000000 in
theorem W5_v64 (c : Dev nD) : W5 m ρ c (Proc.devRef .tc main_v64) = bf16 (a14 m c) := by
  show StableHlo.after hostOps2 (W4 m ρ c) (Proc.devRef .tc main_v64) = _
  after_results_simp
  rw [W4_arg14 m ρ c]
  rfl

set_option maxHeartbeats 8000000 in
theorem W5_v66 (c : Dev nD) : W5 m ρ c (Proc.devRef .tc main_v66) = one1 (a15 m c) := by
  show StableHlo.after hostOps2 (W4 m ρ c) (Proc.devRef .tc main_v66) = _
  after_results_simp
  rw [W4_arg15 m ρ c]
  rfl

/-! ## After the third region, and at the return -/

/-- The third region's output array holds the edge head of the arguments, as a column. -/
theorem W6_v67 (H0 : Hyp0 m ρ) (H1 : Hyp1 m ρ) (H2 : Hyp2 m ρ) (c : Dev nD) : W6 m ρ c (Proc.devRef .tc main_v67)
    = head (rowsAt (hidden2 (a0 m c) (a1 m c) (a6 m c) (a7 m c) (a8 m c) (a9 m c) (a10 m c) (a11 m c)) (a2 m c))
        (rowsAt (hidden2 (a0 m c) (a1 m c) (a6 m c) (a7 m c) (a8 m c) (a9 m c) (a10 m c) (a11 m c)) (a3 m c)) (a4 m c) (col5 (a5 m c))
        (bf16 (w1u (a12 m c))) (bf16 (w1v (a12 m c))) (bf16 (w1e (a12 m c))) (row256 (a13 m c)) (bf16 (a14 m c)) (one1 (a15 m c)) := by
  refine (W6_arr m ρ c 10).trans ((H2 c).trans ?_)
  show head (W5 m ρ c (Proc.devRef .tc main_v49)) (W5 m ρ c (Proc.devRef .tc main_v56)) (W5 m ρ c (Proc.devRef .tc main_arg4))
    (W5 m ρ c (Proc.devRef .tc main_v60)) (W5 m ρ c (Proc.devRef .tc main_v61)) (W5 m ρ c (Proc.devRef .tc main_v62))
    (W5 m ρ c (Proc.devRef .tc main_v63)) (W5 m ρ c (Proc.devRef .tc main_v65)) (W5 m ρ c (Proc.devRef .tc main_v64))
    (W5 m ρ c (Proc.devRef .tc main_v66)) = _
  rw [W5_v49 m ρ H0 H1 c, W5_v56 m ρ H0 H1 c, W5_arg4, W5_v60, W5_v61, W5_v62, W5_v63, W5_v65, W5_v64, W5_v66]

set_option maxHeartbeats 8000000 in
/-- THE RESULT: the result buffer at the return holds the program's function of the arguments. -/
theorem W7_v68 (H0 : Hyp0 m ρ) (H1 : Hyp1 m ρ) (H2 : Hyp2 m ρ) (c : Dev nD) : W7 m ρ c (Proc.devRef .tc main_v68)
    = kernelOut (a0 m c) (a1 m c) (a2 m c) (a3 m c) (a4 m c) (a5 m c) (a6 m c) (a7 m c) (a8 m c) (a9 m c) (a10 m c) (a11 m c)
        (a12 m c) (a13 m c) (a14 m c) (a15 m c) := by
  show StableHlo.after hostOps3 (W6 m ρ c) (Proc.devRef .tc main_v68) = _
  after_results_simp
  rw [W6_v67 m ρ H0 H1 H2 c]
  rfl

end Cert.Sage.KHost

end
-- ==== Proof.Region0.lean ====
/-
  The first layer's kernel, as a value: after its ten grid points the output array [50000, 256] holds `layer1` of the
  five operand arrays as the region found them. Point t computes rows 5000·t … 5000·t + 4999 from the same rows of the
  aggregated and the node features and from the whole weight and bias blocks; the ten row blocks tile the array.
-/
import proofs.«117967_j13993003450942_1_alg».proof.Proof.Gen.KernelIdeal.Frame
import proofs.«117967_j13993003450942_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Sage.Region0

open Idealize.ShloMosaic Idealize.ShloMosaic.TcCoe Idealize.ShloMosaic.ValueIdx Idealize.SL.Sem
open Cert.KernelIdeal Cert.KernelIdeal.Gen Cert.Sage

-- The TensorCore's buffer contents when the region is entered (any: the statement is used at the contents the host
-- stretch before the region leaves).
variable (V : (c : Dev nD) → (b : Ref sig .tc) → Buf (Elt Ideal) ((c : Thread nD τ).loc b))

/-- The zero offsets of a rank-2 rectangle, spelt as the constant function. -/
theorem zero_offsets : (![0, 0] : Fin 2 → Nat) = fun _ => 0 := funext fun a => by fin_cases a <;> rfl

/-! ## The contraction of a row block against the transposed weights

The product contracts axis 1 of the [5000, 128] row block with axis 0 of the [128, 256] transposed weight block; the
operand indices at output index (p, q) and contraction index k are (p, k) and (k, q). -/

theorem lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_contr (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_contr (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product of a row block with a transposed weight block into the zero accumulator, at (p, q): the sum over the
    128 input features of the block's row p against the weights' row q. -/
theorem matmul_transposed_at (a : FVec Ideal S5000x128 .bf16) (w : FVec Ideal S256x128 .bf16) (p : Fin 5000) (q : Fin 256) :
    matmul dot_S5000x128_S128x256_S5000x256_1_0_0_1_n_n none a
        (transpose S128x256 [1, 0] w transposes_S256x128_p1_0_S128x256) (constant (F := Ideal) S5000x256 .f32 0x00000000#32) (ix2 p q)
      = ∑ k : Fin 128, a (ix2 p k) * w (ix2 q k) := by
  generalize hwt : transpose S128x256 [1, 0] w transposes_S256x128_p1_0_S128x256 = wt
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun b => Fin.ext (by
    match b with
    | ⟨0, _⟩ => exact lhs_row _ _
    | ⟨1, _⟩ => exact (lhs_contr _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun b => Fin.ext (by
    match b with
    | ⟨0, _⟩ => exact (rhs_contr _ _).trans hk
    | ⟨1, _⟩ => exact rhs_col _ _)
  rw [el, er, ← hwt]
  exact congrArg (a (ix2 p k) * ·) (transpose_apply [1, 0] w transposes_S256x128_p1_0_S128x256 (ix2 k q) (ix2 q k) (fun b => match b with
    | ⟨0, _⟩ => rfl
    | ⟨1, _⟩ => rfl))

/-! ## The body's arithmetic at an index -/

/-- The stored block at (p, q): relu of the aggregated rows' block against the left weights, plus the node rows' block
    against the right weights, plus the bias; the float-format changes are the identity on the extended reals. -/
theorem payload_at (x0 x1 : Vec Ideal S5000x128 .f32) (x2 x3 : Vec Ideal S256x128 .bf16) (x4 : Vec Ideal S1x256 .f32)
    (p : Fin 5000) (q : Fin 256) :
    k0_pay1 (F := Ideal) x0 x1 x2 x3 x4 (ix2 p q)
      = max (((∑ k : Fin 128, x0 (ix2 p k) * x2 (ix2 q k)) + ∑ k : Fin 128, x1 (ix2 p k) * x3 (ix2 q k))
          + x4 (ix2 (0 : Fin 1) q)) (0 : EReal) := by
  unfold k0_pay1
  rw [maximumf_apply, addf_apply, addf_apply, broadcast_apply]
  simp only [shapeCast_self]
  rw [matmul_transposed_at, matmul_transposed_at,
    broadcastTo_apply x4 broadcasts_S1x256_S5000x256 (ix2 p q) (ix2 (0 : Fin 1) q) (fun a => match a with
      | ⟨0, _⟩ => by show (0 : ℕ) = if (1 : Nat) = 1 then 0 else _; rw [if_pos rfl]
      | ⟨1, _⟩ => by show q.val = if (256 : Nat) = 1 then 0 else q.val; rw [if_neg (by decide)])]
  simp only [truncf_apply]
  exact congrArg (max _ ·) Ideal.ofBits_zero_f32

/-! ## A stored entry against the layer's function

Row `j 0` of a point's output block is row `i 0` of the array, column `j 1` is column `i 1`; the entry depends on that row
of the two row-blocked operands, on row `j 1` of the two weight blocks and on entry `j 1` of the bias. -/

/-- The row coordinate of an index of a [5000, 256] block. -/
abbrev brow (j : S5000x256.Idx) : Fin 5000 := ⟨(j 0).val, (j 0).isLt⟩
/-- The column coordinate of an index of a [5000, 256] block. -/
abbrev bcol (j : S5000x256.Idx) : Fin 256 := ⟨(j 1).val, (j 1).isLt⟩

/-- If the operand blocks hold, on the rows and columns the entry reads, what the arrays hold on the rows and columns
    the layer's entry `i` reads, the stored entry `j` is the layer's entry `i`. -/
theorem block_entry (x0 x1 : Vec Ideal S5000x128 .f32) (x2 x3 : Vec Ideal S256x128 .bf16) (x4 : Vec Ideal S1x256 .f32)
    (agg x : Arr S50000x128 .f32) (wl wr : Arr S256x128 .bf16) (bl : Arr S1x256 .f32)
    (j : S5000x256.Idx) (i : S50000x256.Idx)
    (h0 : ∀ k : Fin 128, x0 (ix2 (brow j) k) = agg (ix2 (node i) k))
    (h1 : ∀ k : Fin 128, x1 (ix2 (brow j) k) = x (ix2 (node i) k))
    (h2 : ∀ k : Fin 128, x2 (ix2 (bcol j) k) = wl (ix2 (feat i) k))
    (h3 : ∀ k : Fin 128, x3 (ix2 (bcol j) k) = wr (ix2 (feat i) k))
    (h4 : x4 (ix2 (0 : Fin 1) (bcol j)) = bl (ix2 (0 : Fin 1) (feat i))) :
    k0_pay1 (F := Ideal) x0 x1 x2 x3 x4 j = layer1 agg x wl wr bl i := by
  have hj : j = ix2 (brow j) (bcol j) := funext fun a => by
    match a with
    | ⟨0, _⟩ => rfl
    | ⟨1, _⟩ => rfl
  rw [hj, payload_at]
  unfold layer1
  simp only [h0, h1, h2, h3, h4]

/-! ## What a grid point writes back -/

/-- The index maps over the ten points: the two row-blocked operands move with the output's row block, whose index is
    the point's number; the weights and the bias stay at block 0; no window moves along the columns. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t` writes back block `t` of the layer's function of the operand arrays. -/
theorem flushed_eq (c : Dev nD) (t : Fin cfg0.N) :
    (dat0 (F := Ideal) V c).flushed 5 t = ((cfg0.win 5).blk t).view.read (Elt Ideal)
      (layer1 (V c main_v22) (V c main_arg0) (V c main_v23) (V c main_v24) (V c main_v25)) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S256x128) zero_offsets,
    View.ld_unit_zero (S := S1x256) zero_offsets]
  obtain ⟨e00, e01, e10, e11, e20, e21, e30, e31, e40, e41, e50, e51⟩ := index_facts t
  funext j
  show k0_pay1 (F := Ideal) (iblk0 V c 0 t) (iblk0 V c 1 t) (iblk0 V c 2 t) (iblk0 V c 3 t) (iblk0 V c 4 t) j
      = layer1 (V c main_v22) (V c main_arg0) (V c main_v23) (V c main_v24) (V c main_v25) (((cfg0.win 5).blk t).view.emb j)
  have hr : (j 0).val < 5000 := (j 0).isLt
  have hq : (j 1).val < 256 := (j 1).isLt
  refine block_entry (iblk0 V c 0 t) (iblk0 V c 1 t) (iblk0 V c 2 t) (iblk0 V c 3 t) (iblk0 V c 4 t)
    (V c main_v22) (V c main_arg0) (V c main_v23) (V c main_v24) (V c main_v25) j (((cfg0.win 5).blk t).view.emb j) ?_ ?_ ?_ ?_ ?_
  · -- the aggregated rows: the operand's row block is the output's
    intro k
    show V c main_v22 (((cfg0.win 0).blk t).view.emb (ix2 (brow j) k)) = V c main_v22 (ix2 (node (((cfg0.win 5).blk t).view.emb j)) k)
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · -- the node rows: likewise
    intro k
    show V c main_arg0 (((cfg0.win 1).blk t).view.emb (ix2 (brow j) k)) = V c main_arg0 (ix2 (node (((cfg0.win 5).blk t).view.emb j)) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · -- the left weights: the whole array, whose row is the output's column
    intro k
    show V c main_v23 (((cfg0.win 2).blk t).view.emb (ix2 (bcol j) k)) = V c main_v23 (ix2 (feat (((cfg0.win 5).blk t).view.emb j)) k)
    refine congrArg (V c main_v23) (funext fun a => Fin.ext ?_)
    match a with
    | ⟨0, _⟩ => show win0_2.index t (0 : Fin 2) * 256 + 1 * (j 1).val = win0_5.index t (1 : Fin 2) * 256 + 1 * (j 1).val; omega
    | ⟨1, _⟩ => show win0_2.index t (1 : Fin 2) * 128 + 1 * k.val = k.val; omega
  · -- the right weights: likewise
    intro k
    show V c main_v24 (((cfg0.win 3).blk t).view.emb (ix2 (bcol j) k)) = V c main_v24 (ix2 (feat (((cfg0.win 5).blk t).view.emb j)) k)
    refine congrArg (V c main_v24) (funext fun a => Fin.ext ?_)
    match a with
    | ⟨0, _⟩ => show win0_3.index t (0 : Fin 2) * 256 + 1 * (j 1).val = win0_5.index t (1 : Fin 2) * 256 + 1 * (j 1).val; omega
    | ⟨1, _⟩ => show win0_3.index t (1 : Fin 2) * 128 + 1 * k.val = k.val; omega
  · -- the bias: the whole one-row array, at the output's column
    show V c main_v25 (((cfg0.win 4).blk t).view.emb (ix2 (0 : Fin 1) (bcol j))) = V c main_v25 (ix2 (0 : Fin 1) (feat (((cfg0.win 5).blk t).view.emb j)))
    refine congrArg (V c main_v25) (funext fun a => Fin.ext ?_)
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + 1 * (j 1).val; omega

/-! ## The ten row blocks tile the array -/

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v26).slice (win0_5.rect t)).set ↔ _
  rw [View.set_slice_whole, Rect.mem_set_unit]
  exact Iff.rfl

/-- Row `r` of the array is written by point `r / 5000`. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 10 := N_0
  have ht : (i 0).val / 5000 < cfg0.N := by show (i 0).val / 5000 < grid0.N; omega
  obtain ⟨-, -, -, -, -, -, -, -, -, -, e50, e51⟩ := index_facts ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 256 ≤ (i 1).val
      ∧ (i 1).val < win0_5.index ⟨(i 0).val / 5000, ht⟩ (1 : Fin 2) * 256 + 256
    omega

/-- The output array after the region's run is the layer's function of the operand arrays at the region's entry. -/
theorem final (c : Dev nD) :
    (dat0 (F := Ideal) V c).arrAt 5 cfg0.N
      = layer1 (V c main_v22) (V c main_arg0) (V c main_v23) (V c main_v24) (V c main_v25) :=
  (dat0 (F := Ideal) V c).arrAt_eq_of_cover 5 _ (fun t _ => flushed_eq V c t) cover

end Cert.Sage.Region0

end
-- ==== Proof.Region1.lean ====
/-
  The second layer's kernel, as a value: after its ten grid points the output array [50000, 256] holds `layer2` of the
  five operand arrays as the region found them. Point t computes rows 5000·t … 5000·t + 4999 from the same rows of the
  aggregated and the first layer's features and from the whole weight and bias blocks; the ten row blocks tile the array.
-/
import proofs.«117967_j13993003450942_1_alg».proof.Proof.Gen.KernelIdeal.Frame
import proofs.«117967_j13993003450942_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Sage.Region1

open Idealize.ShloMosaic Idealize.ShloMosaic.TcCoe Idealize.ShloMosaic.ValueIdx Idealize.SL.Sem
open Cert.KernelIdeal Cert.KernelIdeal.Gen Cert.Sage

/-! ## One entry of the block a point computes

The block's entry (p, q) is relu((∑ₖ a[p,k]·wl[q,k] + ∑ₖ x[p,k]·wr[q,k]) + bias[0,q]): each matrix product contracts the
row's 256 features against row q of the weight block (the kernel multiplies by the transposed weights). -/

/-- The left operand of a product at output index (p, q) and contraction index k sits in row p … -/
theorem lhs_axis0 (i : S5000x256.Idx) (r : dot_S5000x256_S256x256_S5000x256_1_0_0_1_n_n.contr.Idx) :
    (dot_S5000x256_S256x256_S5000x256_1_0_0_1_n_n.lhsIdx i r 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … and column k. -/
theorem lhs_axis1 (i : S5000x256.Idx) (r : dot_S5000x256_S256x256_S5000x256_1_0_0_1_n_n.contr.Idx) :
    (dot_S5000x256_S256x256_S5000x256_1_0_0_1_n_n.lhsIdx i r 1).val = (r ⟨0, by decide⟩).val :=
  dot_S5000x256_S256x256_S5000x256_1_0_0_1_n_n.lhsIdx_val_of_single rfl i r
/-- The right operand sits in row k … -/
theorem rhs_axis0 (i : S5000x256.Idx) (r : dot_S5000x256_S256x256_S5000x256_1_0_0_1_n_n.contr.Idx) :
    (dot_S5000x256_S256x256_S5000x256_1_0_0_1_n_n.rhsIdx i r 0).val = (r ⟨0, by decide⟩).val :=
  dot_S5000x256_S256x256_S5000x256_1_0_0_1_n_n.rhsIdx_val_of_single rfl i r
/-- … and column q. -/
theorem rhs_axis1 (i : S5000x256.Idx) (r : dot_S5000x256_S256x256_S5000x256_1_0_0_1_n_n.contr.Idx) :
    (dot_S5000x256_S256x256_S5000x256_1_0_0_1_n_n.rhsIdx i r 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A [5000,256] × [256,256] product into a zero accumulator, at entry (p, q): the plain sum over the contracted axis. -/
theorem product_apply (a : FVec Ideal S5000x256 .bf16) (b : FVec Ideal S256x256 .bf16) (p : Fin 5000) (q : Fin 256) :
    matmul dot_S5000x256_S256x256_S5000x256_1_0_0_1_n_n none a b (constant (F := Ideal) S5000x256 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The transposed weight block at (k, q) is the weight block at (q, k). -/
theorem transposed_apply {α : Type} (w : S256x256.Idx → α) (k q : Fin 256) :
    transpose S256x256 [1, 0] w Facts₀.transposes_S256x256_p1_0_S256x256 (ix2 k q) = w (ix2 q k) :=
  transpose_apply [1, 0] w Facts₀.transposes_S256x256_p1_0_S256x256 (ix2 k q) (ix2 q k) (fun b => match b with
    | ⟨0, _⟩ => rfl
    | ⟨1, _⟩ => rfl)

/-- The bias row broadcast down the block's rows reads the bias at the column. -/
theorem bias_apply {α : Type} (b : S1x256.Idx → α) (p : Fin 5000) (q : Fin 256) :
    broadcastTo S5000x256 b Facts₀.broadcasts_S1x256_S5000x256 (ix2 p q) = b (ix2 (0 : Fin 1) q) :=
  broadcastTo_apply b Facts₀.broadcasts_S1x256_S5000x256 (ix2 p q) (ix2 (0 : Fin 1) q) (fun a => match a with
    | ⟨0, _⟩ => rfl
    | ⟨1, _⟩ => rfl)

/-- The body's result at entry (p, q) of the block. -/
theorem payload_apply (x0 x1 : Vec Ideal S5000x256 .f32) (x2 x3 : Vec Ideal S256x256 .bf16) (x4 : Vec Ideal S1x256 .f32)
    (p : Fin 5000) (q : Fin 256) :
    k1_pay1 (F := Ideal) x0 x1 x2 x3 x4 (ix2 p q)
      = max (((∑ k : Fin 256, x0 (ix2 p k) * x2 (ix2 q k)) + ∑ k : Fin 256, x1 (ix2 p k) * x3 (ix2 q k))
          + x4 (ix2 (0 : Fin 1) q)) (0 : EReal) := by
  unfold k1_pay1
  simp only [shapeCast_self]
  rw [maximumf_apply, addf_apply, addf_apply, broadcast_apply, product_apply, product_apply, bias_apply]
  refine congrArg₂ max (congrArg₂ (· + ·) (congrArg₂ (· + ·) (Finset.sum_congr rfl fun k _ => ?_)
    (Finset.sum_congr rfl fun k _ => ?_)) rfl) Ideal.ofBits_zero_f32
  · exact congrArg (_ * ·) (transposed_apply x2 k q)
  · exact congrArg (_ * ·) (transposed_apply x3 k q)

-- The TensorCore's buffer contents when the region is entered (any: the statement is used at the contents the host
-- stretch before the region leaves).
variable (V : (c : Dev nD) → (b : Ref sig .tc) → Buf (Elt Ideal) ((c : Thread nD τ).loc b))

/-! ## The blocks a point reads, as rows of the operand arrays -/

theorem zero_offsets : (![0, 0] : Fin 2 → Nat) = fun _ => 0 := funext fun a => by fin_cases a <;> rfl

/-- The index maps over the ten points: the two row-blocked inputs and the output take row block t, column block 0;
    the weight and bias windows always take block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 5000·t + p of the array. -/
abbrev row (t : Fin cfg1.N) (p : Fin 5000) : Fin 50000 :=
  ⟨t.val * 5000 + p.val, by have ht : t.val < 10 := lt_of_lt_of_eq t.isLt N_1; have hp := p.isLt; omega⟩

/-- The aggregated-features block at point t is rows 5000·t … of the aggregated array. -/
theorem agg_block (c : Dev nD) (t : Fin cfg1.N) (p : Fin 5000) (k : Fin 256) :
    (iblk1 V c 0 t : Vec Ideal S5000x256 .f32) (ix2 p k) = (V c main_v38 : Arr S50000x256 .f32) (ix2 (row t p) k) := by
  obtain ⟨e0, e1, -⟩ := index_facts t
  show (V c main_v38 : Arr S50000x256 .f32) (((cfg1.win 0).blk t).view.emb (ix2 p k)) = _
  refine congrArg (V c main_v38 : Arr S50000x256 .f32) (funext fun a => Fin.ext ?_)
  match a with
  | ⟨0, _⟩ => show win1_0.index t (0 : Fin 2) * 5000 + 1 * p.val = t.val * 5000 + p.val; omega
  | ⟨1, _⟩ => show win1_0.index t (1 : Fin 2) * 256 + 1 * k.val = k.val; omega

/-- The first layer's features block at point t is the same rows of that array. -/
theorem self_block (c : Dev nD) (t : Fin cfg1.N) (p : Fin 5000) (k : Fin 256) :
    (iblk1 V c 1 t : Vec Ideal S5000x256 .f32) (ix2 p k) = (V c main_v26 : Arr S50000x256 .f32) (ix2 (row t p) k) := by
  obtain ⟨-, -, e0, e1, -⟩ := index_facts t
  show (V c main_v26 : Arr S50000x256 .f32) (((cfg1.win 1).blk t).view.emb (ix2 p k)) = _
  refine congrArg (V c main_v26 : Arr S50000x256 .f32) (funext fun a => Fin.ext ?_)
  match a with
  | ⟨0, _⟩ => show win1_1.index t (0 : Fin 2) * 5000 + 1 * p.val = t.val * 5000 + p.val; omega
  | ⟨1, _⟩ => show win1_1.index t (1 : Fin 2) * 256 + 1 * k.val = k.val; omega

/-- The aggregated-side weight block is the whole weight array at every point. -/
theorem wl_block (c : Dev nD) (t : Fin cfg1.N) (q k : Fin 256) :
    (iblk1 V c 2 t : Vec Ideal S256x256 .bf16) (ix2 q k) = (V c main_v39 : Arr S256x256 .bf16) (ix2 q k) := by
  obtain ⟨-, -, -, -, e0, e1, -⟩ := index_facts t
  show (V c main_v39 : Arr S256x256 .bf16) (((cfg1.win 2).blk t).view.emb (ix2 q k)) = _
  refine congrArg (V c main_v39 : Arr S256x256 .bf16) (funext fun a => Fin.ext ?_)
  match a with
  | ⟨0, _⟩ => show win1_2.index t (0 : Fin 2) * 256 + 1 * q.val = q.val; omega
  | ⟨1, _⟩ => show win1_2.index t (1 : Fin 2) * 256 + 1 * k.val = k.val; omega

/-- The self-side weight block is the whole weight array at every point. -/
theorem wr_block (c : Dev nD) (t : Fin cfg1.N) (q k : Fin 256) :
    (iblk1 V c 3 t : Vec Ideal S256x256 .bf16) (ix2 q k) = (V c main_v40 : Arr S256x256 .bf16) (ix2 q k) := by
  obtain ⟨-, -, -, -, -, -, e0, e1, -⟩ := index_facts t
  show (V c main_v40 : Arr S256x256 .bf16) (((cfg1.win 3).blk t).view.emb (ix2 q k)) = _
  refine congrArg (V c main_v40 : Arr S256x256 .bf16) (funext fun a => Fin.ext ?_)
  match a with
  | ⟨0, _⟩ => show win1_3.index t (0 : Fin 2) * 256 + 1 * q.val = q.val; omega
  | ⟨1, _⟩ => show win1_3.index t (1 : Fin 2) * 256 + 1 * k.val = k.val; omega

/-- The bias block is the whole bias row at every point. -/
theorem bias_block (c : Dev nD) (t : Fin cfg1.N) (z : Fin 1) (q : Fin 256) :
    (iblk1 V c 4 t : Vec Ideal S1x256 .f32) (ix2 z q) = (V c main_v41 : Arr S1x256 .f32) (ix2 z q) := by
  obtain ⟨-, -, -, -, -, -, -, -, e0, e1, -⟩ := index_facts t
  show (V c main_v41 : Arr S1x256 .f32) (((cfg1.win 4).blk t).view.emb (ix2 z q)) = _
  refine congrArg (V c main_v41 : Arr S1x256 .f32) (funext fun a => Fin.ext ?_)
  match a with
  | ⟨0, _⟩ => show win1_4.index t (0 : Fin 2) * 1 + 1 * z.val = z.val; omega
  | ⟨1, _⟩ => show win1_4.index t (1 : Fin 2) * 256 + 1 * q.val = q.val; omega

/-! ## What a point writes back, and the array after the ten points -/

/-- Point t writes back block t of the layer's function of the operand arrays. -/
theorem flushed_eq (c : Dev nD) (t : Fin cfg1.N) :
    (dat1 (F := Ideal) V c).flushed 5 t = ((cfg1.win 5).blk t).view.read (Elt Ideal)
      (layer2 (V c main_v38) (V c main_v26) (V c main_v39) (V c main_v40) (V c main_v41)) := by
  show (cfg1.win 5).cut (grid1.coords t) ((dat1 (F := Ideal) V c).after 5 t) = _
  rw [after1_5]
  unfold out1_5
  rw [View.canon_unit_zero zero_offsets]
  simp only [View.ld_unit_zero (S := S5000x256) zero_offsets, View.ld_unit_zero (S := S256x256) zero_offsets,
    View.ld_unit_zero (S := S1x256) zero_offsets]
  obtain ⟨-, -, -, -, -, -, -, -, -, -, e0, e1⟩ := index_facts t
  funext j
  obtain ⟨p, q, rfl⟩ : ∃ (p : Fin 5000) (q : Fin 256), j = ix2 p q := ⟨j 0, j 1, eq_ix2 j⟩
  have hnode : node (((cfg1.win 5).blk t).view.emb (ix2 p q)) = row t p :=
    Fin.ext (by show win1_5.index t (0 : Fin 2) * 5000 + 1 * p.val = t.val * 5000 + p.val; omega)
  have hfeat : feat (((cfg1.win 5).blk t).view.emb (ix2 p q)) = q :=
    Fin.ext (by show win1_5.index t (1 : Fin 2) * 256 + 1 * q.val = q.val; omega)
  show k1_pay1 (F := Ideal) (iblk1 V c 0 t) (iblk1 V c 1 t) (iblk1 V c 2 t) (iblk1 V c 3 t) (iblk1 V c 4 t) (ix2 p q)
    = layer2 (V c main_v38) (V c main_v26) (V c main_v39) (V c main_v40) (V c main_v41) (((cfg1.win 5).blk t).view.emb (ix2 p q))
  refine (payload_apply (iblk1 V c 0 t) (iblk1 V c 1 t) (iblk1 V c 2 t) (iblk1 V c 3 t) (iblk1 V c 4 t) p q).trans ?_
  unfold layer2
  rw [hnode, hfeat]
  refine congrArg₂ max (congrArg₂ (· + ·) (congrArg₂ (· + ·) (Finset.sum_congr rfl fun k _ => ?_)
    (Finset.sum_congr rfl fun k _ => ?_)) ?_) rfl
  · exact congrArg₂ (· * ·) (agg_block V c t p k) (wl_block V c t q k)
  · exact congrArg₂ (· * ·) (self_block V c t p k) (wr_block V c t q k)
  · exact bias_block V c t 0 q

/-- An index of the array is in point t's block iff each coordinate is in the block's range on its axis. -/
theorem mem_block (t : Fin cfg1.N) (i : S50000x256.Idx) :
    i ∈ ((cfg1.win 5).blk t).view.set ↔ ∀ a : Fin 2, win1_5.index t a * S5000x256.size a ≤ (i a).val
      ∧ (i a).val < win1_5.index t a * S5000x256.size a + S5000x256.size a := by
  show i ∈ ((View.whole main_v42).slice (win1_5.rect t)).set ↔ _
  rw [View.set_slice_whole, Rect.mem_set_unit]
  exact Iff.rfl

/-- Row r of the array is written by point r / 5000: the ten row blocks tile the array. -/
theorem covered (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, e0, e1⟩ := index_facts t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 256 ≤ (i 1).val ∧ (i 1).val < win1_5.index t (1 : Fin 2) * 256 + 256; omega

/-- The output array after the region's run is the layer's function of the operand arrays at the region's entry. -/
theorem final (c : Dev nD) :
    (dat1 (F := Ideal) V c).arrAt 5 cfg1.N
      = layer2 (V c main_v38) (V c main_v26) (V c main_v39) (V c main_v40) (V c main_v41) :=
  (dat1 (F := Ideal) V c).arrAt_eq_of_cover 5
    (layer2 (V c main_v38) (V c main_v26) (V c main_v39) (V c main_v40) (V c main_v41))
    (fun t _ => flushed_eq V c t) covered

end Cert.Sage.Region1

end
-- ==== Proof.Region2.lean ====
/-
  The edge head's kernel, as a value: after its 125 grid points the output array [500000, 1] holds `head` of the ten
  operand arrays as the region found them. Point t computes edges 4000·t … 4000·t + 3999 from the same rows of the two
  gathered endpoint features, the edge attributes and the log exposure, and from the whole weight and bias blocks; the
  125 row blocks tile the array.
-/
import proofs.«117967_j13993003450942_1_alg».proof.Proof.Gen.KernelIdeal.Frame
import proofs.«117967_j13993003450942_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Sage.Region2

open Idealize.ShloMosaic Idealize.ShloMosaic.TcCoe Idealize.ShloMosaic.ValueIdx Idealize.SL.Sem
open Cert.KernelIdeal Cert.KernelIdeal.Gen Cert.Sage

-- The TensorCore's buffer contents when the region is entered (any: the statement is used at the contents the host
-- stretch before the region leaves).
variable (V : (c : Dev nD) → (b : Ref sig .tc) → Buf (Elt Ideal) ((c : Thread nD τ).loc b))

/-! ## The three contractions at an index

Each product of the body contracts the last axis of its left operand with the first axis of its right operand, into a
zero accumulator: at output index (p, q) it is the plain sum over k of left (p, k) times right (k, q). -/

theorem lhsU_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhsU_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhsU_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhsU_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- An endpoint's 256 features against a [256, 256] matrix. -/
theorem matmulU_apply (l : FVec Ideal S4000x256 .bf16) (r : FVec Ideal S256x256 .bf16) (p : Fin 4000) (q : Fin 256) :
    matmul dot_S4000x256_S256x256_S4000x256_1_0_0_1_n_n none l r (constant S4000x256 .f32 0x00000000#32) (ix2 p q)
      = ∑ k : Fin 256, l (ix2 p k) * r (ix2 k q) := by
  show FloatOps.matmul dot_S4000x256_S256x256_S4000x256_1_0_0_1_n_n none l r (constant S4000x256 .f32 0x00000000#32) (ix2 p q) = _
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact lhsU_0 _ _
    | ⟨1, _⟩ => exact (lhsU_1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (rhsU_0 _ _).trans hk
    | ⟨1, _⟩ => exact rhsU_1 _ _)
  rw [el, er]

theorem lhsE_0 (i : S4000x256.Idx) (q : dot_S4000x16_S16x256_S4000x256_1_0_0_1_n_n.contr.Idx) :
    (dot_S4000x16_S16x256_S4000x256_1_0_0_1_n_n.lhsIdx i q 0).val = (i 0).val := by
  unfold DotDims.lhsIdx
  rw [dif_neg (show ¬(0 : Fin S4000x16.rank) ∈ dot_S4000x16_S16x256_S4000x256_1_0_0_1_n_n.lhsBatch by decide), dif_pos (show (0 : Fin S4000x16.rank) ∈ dot_S4000x16_S16x256_S4000x256_1_0_0_1_n_n.lhsNonContracting by decide)]
  rfl
theorem lhsE_1 (i : S4000x256.Idx) (q : dot_S4000x16_S16x256_S4000x256_1_0_0_1_n_n.contr.Idx) :
    (dot_S4000x16_S16x256_S4000x256_1_0_0_1_n_n.lhsIdx i q 1).val = (q ⟨0, by decide⟩).val :=
  dot_S4000x16_S16x256_S4000x256_1_0_0_1_n_n.lhsIdx_val_of_single rfl i q
theorem rhsE_0 (i : S4000x256.Idx) (q : dot_S4000x16_S16x256_S4000x256_1_0_0_1_n_n.contr.Idx) :
    (dot_S4000x16_S16x256_S4000x256_1_0_0_1_n_n.rhsIdx i q 0).val = (q ⟨0, by decide⟩).val :=
  dot_S4000x16_S16x256_S4000x256_1_0_0_1_n_n.rhsIdx_val_of_single rfl i q
theorem rhsE_1 (i : S4000x256.Idx) (q : dot_S4000x16_S16x256_S4000x256_1_0_0_1_n_n.contr.Idx) :
    (dot_S4000x16_S16x256_S4000x256_1_0_0_1_n_n.rhsIdx i q 1).val = (i 1).val := by
  unfold DotDims.rhsIdx
  rw [dif_neg (show ¬(1 : Fin S16x256.rank) ∈ dot_S4000x16_S16x256_S4000x256_1_0_0_1_n_n.rhsBatch by decide), dif_pos (show (1 : Fin S16x256.rank) ∈ dot_S4000x16_S16x256_S4000x256_1_0_0_1_n_n.rhsNonContracting by decide)]
  rfl

/-- An edge's 16 attributes against a [16, 256] matrix. -/
theorem matmulE_apply (l : FVec Ideal S4000x16 .bf16) (r : FVec Ideal S16x256 .bf16) (p : Fin 4000) (q : Fin 256) :
    matmul dot_S4000x16_S16x256_S4000x256_1_0_0_1_n_n none l r (constant S4000x256 .f32 0x00000000#32) (ix2 p q)
      = ∑ k : Fin 16, l (ix2 p k) * r (ix2 k q) := by
  show FloatOps.matmul dot_S4000x16_S16x256_S4000x256_1_0_0_1_n_n none l r (constant S4000x256 .f32 0x00000000#32) (ix2 p q) = _
  rw [Ideal.matmul_constant_zero_apply, ← Equiv.sum_comp (contrEquiv1 dot_S4000x16_S16x256_S4000x256_1_0_0_1_n_n 16 rfl rfl).symm]
  refine Finset.sum_congr rfl fun k _ => ?_
  have hk := contrEquiv1_symm_val dot_S4000x16_S16x256_S4000x256_1_0_0_1_n_n 16 rfl rfl k
  have el : dot_S4000x16_S16x256_S4000x256_1_0_0_1_n_n.lhsIdx (ix2 p q) ((contrEquiv1 dot_S4000x16_S16x256_S4000x256_1_0_0_1_n_n 16 rfl rfl).symm k) = ix2 p k := funext fun a => Fin.ext (by
    match a with
    | ⟨0, _⟩ => exact lhsE_0 _ _
    | ⟨1, _⟩ => exact (lhsE_1 _ _).trans hk)
  have er : dot_S4000x16_S16x256_S4000x256_1_0_0_1_n_n.rhsIdx (ix2 p q) ((contrEquiv1 dot_S4000x16_S16x256_S4000x256_1_0_0_1_n_n 16 rfl rfl).symm k) = ix2 k q := funext fun a => Fin.ext (by
    match a with
    | ⟨0, _⟩ => exact (rhsE_0 _ _).trans hk
    | ⟨1, _⟩ => exact rhsE_1 _ _)
  rw [el, er]

theorem lhsO_0 (i : S4000x1.Idx) (q : dot_S4000x256_S256x1_S4000x1_1_0_0_1_n_n.contr.Idx) :
    (dot_S4000x256_S256x1_S4000x1_1_0_0_1_n_n.lhsIdx i q 0).val = (i 0).val := by
  unfold DotDims.lhsIdx
  rw [dif_neg (show ¬(0 : Fin S4000x256.rank) ∈ dot_S4000x256_S256x1_S4000x1_1_0_0_1_n_n.lhsBatch by decide), dif_pos (show (0 : Fin S4000x256.rank) ∈ dot_S4000x256_S256x1_S4000x1_1_0_0_1_n_n.lhsNonContracting by decide)]
  rfl
theorem lhsO_1 (i : S4000x1.Idx) (q : dot_S4000x256_S256x1_S4000x1_1_0_0_1_n_n.contr.Idx) :
    (dot_S4000x256_S256x1_S4000x1_1_0_0_1_n_n.lhsIdx i q 1).val = (q ⟨0, by decide⟩).val :=
  dot_S4000x256_S256x1_S4000x1_1_0_0_1_n_n.lhsIdx_val_of_single rfl i q
theorem rhsO_0 (i : S4000x1.Idx) (q : dot_S4000x256_S256x1_S4000x1_1_0_0_1_n_n.contr.Idx) :
    (dot_S4000x256_S256x1_S4000x1_1_0_0_1_n_n.rhsIdx i q 0).val = (q ⟨0, by decide⟩).val :=
  dot_S4000x256_S256x1_S4000x1_1_0_0_1_n_n.rhsIdx_val_of_single rfl i q
theorem rhsO_1 (i : S4000x1.Idx) (q : dot_S4000x256_S256x1_S4000x1_1_0_0_1_n_n.contr.Idx) :
    (dot_S4000x256_S256x1_S4000x1_1_0_0_1_n_n.rhsIdx i q 1).val = (i 1).val := by
  unfold DotDims.rhsIdx
  rw [dif_neg (show ¬(1 : Fin S256x1.rank) ∈ dot_S4000x256_S256x1_S4000x1_1_0_0_1_n_n.rhsBatch by decide), dif_pos (show (1 : Fin S256x1.rank) ∈ dot_S4000x256_S256x1_S4000x1_1_0_0_1_n_n.rhsNonContracting by decide)]
  rfl

/-- The 256 hidden units against the one column of the second weight matrix. -/
theorem matmulO_apply (l : FVec Ideal S4000x256 .bf16) (r : FVec Ideal S256x1 .bf16) (p : Fin 4000) (q : Fin 1) :
    matmul dot_S4000x256_S256x1_S4000x1_1_0_0_1_n_n none l r (constant S4000x1 .f32 0x00000000#32) (ix2 p q)
      = ∑ k : Fin 256, l (ix2 p k) * r (ix2 k q) := by
  show FloatOps.matmul dot_S4000x256_S256x1_S4000x1_1_0_0_1_n_n none l r (constant S4000x1 .f32 0x00000000#32) (ix2 p q) = _
  rw [Ideal.matmul_constant_zero_apply, ← Equiv.sum_comp (contrEquiv1 dot_S4000x256_S256x1_S4000x1_1_0_0_1_n_n 256 rfl rfl).symm]
  refine Finset.sum_congr rfl fun k _ => ?_
  have hk := contrEquiv1_symm_val dot_S4000x256_S256x1_S4000x1_1_0_0_1_n_n 256 rfl rfl k
  have el : dot_S4000x256_S256x1_S4000x1_1_0_0_1_n_n.lhsIdx (ix2 p q) ((contrEquiv1 dot_S4000x256_S256x1_S4000x1_1_0_0_1_n_n 256 rfl rfl).symm k) = ix2 p k := funext fun a => Fin.ext (by
    match a with
    | ⟨0, _⟩ => exact lhsO_0 _ _
    | ⟨1, _⟩ => exact (lhsO_1 _ _).trans hk)
  have er : dot_S4000x256_S256x1_S4000x1_1_0_0_1_n_n.rhsIdx (ix2 p q) ((contrEquiv1 dot_S4000x256_S256x1_S4000x1_1_0_0_1_n_n 256 rfl rfl).symm k) = ix2 k q := funext fun a => Fin.ext (by
    match a with
    | ⟨0, _⟩ => exact (rhsO_0 _ _).trans hk
    | ⟨1, _⟩ => exact rhsO_1 _ _)
  rw [el, er]

/-! ## The body's arithmetic at an index -/

/-- The f32 zero word the relu compares against is the extended real 0. -/
theorem relu_zero : (FloatOps.ofBits (F := Ideal) .f32 0x00000000#32 : Ideal .f32) = (0 : EReal) := Ideal.ofBits_zero_f32

/-- The value the body contracts and stores, at row p of the block (its one column q): the 256 hidden units of that
    row — relu of the three products against the transposed weight blocks plus the bias — against the second weight's
    one row. -/
theorem pay2_apply (x0 x1 : Vec Ideal S4000x256 .f32) (x2 : Vec Ideal S4000x16 .f32) (x4 x5 : Vec Ideal S256x256 .bf16)
    (x6 : Vec Ideal S256x16 .bf16) (x7 : Vec Ideal S1x256 .f32) (x8 : Vec Ideal S1x256 .bf16) (p : Fin 4000) (q : Fin 1) :
    k2_pay2 (F := Ideal) x0 x1 x2 x4 x5 x6 x7 x8 (ix2 p q)
      = ∑ j : Fin 256, max ((((∑ k : Fin 256, x0 (ix2 p k) * x4 (ix2 j k)) + ∑ k : Fin 256, x1 (ix2 p k) * x5 (ix2 j k))
          + ∑ k : Fin 16, x2 (ix2 p k) * x6 (ix2 j k)) + x7 (ix2 (0 : Fin 1) j)) (0 : EReal) * x8 (ix2 q j) := by
  unfold k2_pay2
  dsimp only
  simp only [shapeCast_self]
  refine (matmulO_apply _ _ p q).trans ?_
  refine Finset.sum_congr rfl fun j _ => ?_
  simp only [truncf_apply, maximumf_apply, broadcast_apply, addf_apply, matmulU_apply, matmulE_apply, broadcastTo_1b_ab_apply,
    transpose_ix2_apply x4 transposes_S256x256_p1_0_S256x256, transpose_ix2_apply x5 transposes_S256x256_p1_0_S256x256,
    transpose_ix2_apply x6 transposes_S256x16_p1_0_S16x256, transpose_ix2_apply x8 transposes_S1x256_p1_0_S256x1, relu_zero]

/-- What the body stores at row p: that contraction, plus the second bias, plus the row's log exposure. -/
theorem pay1_apply (v33 : FVec Ideal S4000x1 .f32) (x9 : Vec Ideal S1x1 .f32) (x3 : Vec Ideal S4000x1 .f32) (p : Fin 4000) (q : Fin 1) :
    k2_pay1 (F := Ideal) v33 (k2_pay3 (F := Ideal) x9) x3 (ix2 p q) = (v33 (ix2 p q) + x9 (ix2 (0 : Fin 1) q)) + x3 (ix2 p q) := by
  unfold k2_pay1 k2_pay3
  dsimp only
  simp only [shapeCast_self, addf_apply, broadcastTo_1b_ab_apply]

/-! ## The windows' blocks as rows of the arrays -/

theorem zero_offsets : (![0, 0] : Fin 2 → Nat) = fun _ => 0 := funext fun a => by
  match a with
  | ⟨0, _⟩ => rfl
  | ⟨1, _⟩ => rfl

/-- The windows' index maps over the grid: the four row-blocked operands and the output sit at block row t, column
    block 0; the six weight and bias operands are whole, at block (0, 0). -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = t.val ∧ win2_10.index t (1 : Fin 2) = 0) :=
  (by decide +kernel : ∀ t : Fin grid2.N, _)

/-- Row p of point t's block of the first endpoint's features is row 4000·t + p of the array. -/
theorem read_hu (c : Dev nD) (t : Fin cfg2.N) (p : Fin 4000) (e : Fin 500000) (he : e.val = t.val * 4000 + p.val) (k : Fin 256) :
    (iblk2 (F := Ideal) V c 0 t : Vec Ideal S4000x256 .f32) (ix2 p k) = (V c main_v49 : Arr S500000x256 .f32) (ix2 e k) := by
  obtain ⟨⟨h0, h1⟩, -⟩ := block_indices t
  unfold iblk2
  show (V c main_v49 : Arr S500000x256 .f32) (((cfg2.win 0).blk t).view.emb (ix2 p k)) = _
  refine congrArg (V c main_v49 : Arr S500000x256 .f32) (funext fun a => Fin.ext ?_)
  match a with
  | ⟨0, _⟩ => show win2_0.index t (0 : Fin 2) * 4000 + 1 * p.val = e.val; omega
  | ⟨1, _⟩ => show win2_0.index t (1 : Fin 2) * 256 + 1 * k.val = k.val; omega

/-- The same for the second endpoint's features. -/
theorem read_hv (c : Dev nD) (t : Fin cfg2.N) (p : Fin 4000) (e : Fin 500000) (he : e.val = t.val * 4000 + p.val) (k : Fin 256) :
    (iblk2 (F := Ideal) V c 1 t : Vec Ideal S4000x256 .f32) (ix2 p k) = (V c main_v56 : Arr S500000x256 .f32) (ix2 e k) := by
  obtain ⟨-, ⟨h0, h1⟩, -⟩ := block_indices t
  unfold iblk2
  show (V c main_v56 : Arr S500000x256 .f32) (((cfg2.win 1).blk t).view.emb (ix2 p k)) = _
  refine congrArg (V c main_v56 : Arr S500000x256 .f32) (funext fun a => Fin.ext ?_)
  match a with
  | ⟨0, _⟩ => show win2_1.index t (0 : Fin 2) * 4000 + 1 * p.val = e.val; omega
  | ⟨1, _⟩ => show win2_1.index t (1 : Fin 2) * 256 + 1 * k.val = k.val; omega

/-- The same for the edge attributes (16 columns). -/
theorem read_ea (c : Dev nD) (t : Fin cfg2.N) (p : Fin 4000) (e : Fin 500000) (he : e.val = t.val * 4000 + p.val) (k : Fin 16) :
    (iblk2 (F := Ideal) V c 2 t : Vec Ideal S4000x16 .f32) (ix2 p k) = (V c main_arg4 : Arr S500000x16 .f32) (ix2 e k) := by
  obtain ⟨-, -, ⟨h0, h1⟩, -⟩ := block_indices t
  unfold iblk2
  show (V c main_arg4 : Arr S500000x16 .f32) (((cfg2.win 2).blk t).view.emb (ix2 p k)) = _
  refine congrArg (V c main_arg4 : Arr S500000x16 .f32) (funext fun a => Fin.ext ?_)
  match a with
  | ⟨0, _⟩ => show win2_2.index t (0 : Fin 2) * 4000 + 1 * p.val = e.val; omega
  | ⟨1, _⟩ => show win2_2.index t (1 : Fin 2) * 16 + 1 * k.val = k.val; omega

/-- The same for the log exposure (one column). -/
theorem read_loge (c : Dev nD) (t : Fin cfg2.N) (p : Fin 4000) (e : Fin 500000) (he : e.val = t.val * 4000 + p.val) (k : Fin 1) :
    (iblk2 (F := Ideal) V c 3 t : Vec Ideal S4000x1 .f32) (ix2 p k) = (V c main_v60 : Arr S500000x1 .f32) (ix2 e k) := by
  obtain ⟨-, -, -, ⟨h0, h1⟩, -⟩ := block_indices t
  unfold iblk2
  show (V c main_v60 : Arr S500000x1 .f32) (((cfg2.win 3).blk t).view.emb (ix2 p k)) = _
  refine congrArg (V c main_v60 : Arr S500000x1 .f32) (funext fun a => Fin.ext ?_)
  match a with
  | ⟨0, _⟩ => show win2_3.index t (0 : Fin 2) * 4000 + 1 * p.val = e.val; omega
  | ⟨1, _⟩ => show win2_3.index t (1 : Fin 2) * 1 + 1 * k.val = k.val; omega

/-- The weight and bias operands' one block is the whole array, at every point. -/
theorem read_w1u (c : Dev nD) (t : Fin cfg2.N) (j : Fin 256) (k : Fin 256) :
    (iblk2 (F := Ideal) V c 4 t : Vec Ideal S256x256 .bf16) (ix2 j k) = (V c main_v61 : Arr S256x256 .bf16) (ix2 j k) := by
  obtain ⟨-, -, -, -, ⟨h0, h1⟩, -⟩ := block_indices t
  unfold iblk2
  show (V c main_v61 : Arr S256x256 .bf16) (((cfg2.win 4).blk t).view.emb (ix2 j k)) = _
  refine congrArg (V c main_v61 : Arr S256x256 .bf16) (funext fun a => Fin.ext ?_)
  match a with
  | ⟨0, _⟩ => show win2_4.index t (0 : Fin 2) * 256 + 1 * j.val = j.val; omega
  | ⟨1, _⟩ => show win2_4.index t (1 : Fin 2) * 256 + 1 * k.val = k.val; omega

theorem read_w1v (c : Dev nD) (t : Fin cfg2.N) (j : Fin 256) (k : Fin 256) :
    (iblk2 (F := Ideal) V c 5 t : Vec Ideal S256x256 .bf16) (ix2 j k) = (V c main_v62 : Arr S256x256 .bf16) (ix2 j k) := by
  obtain ⟨-, -, -, -, -, ⟨h0, h1⟩, -⟩ := block_indices t
  unfold iblk2
  show (V c main_v62 : Arr S256x256 .bf16) (((cfg2.win 5).blk t).view.emb (ix2 j k)) = _
  refine congrArg (V c main_v62 : Arr S256x256 .bf16) (funext fun a => Fin.ext ?_)
  match a with
  | ⟨0, _⟩ => show win2_5.index t (0 : Fin 2) * 256 + 1 * j.val = j.val; omega
  | ⟨1, _⟩ => show win2_5.index t (1 : Fin 2) * 256 + 1 * k.val = k.val; omega

theorem read_w1e (c : Dev nD) (t : Fin cfg2.N) (j : Fin 256) (k : Fin 16) :
    (iblk2 (F := Ideal) V c 6 t : Vec Ideal S256x16 .bf16) (ix2 j k) = (V c main_v63 : Arr S256x16 .bf16) (ix2 j k) := by
  obtain ⟨-, -, -, -, -, -, ⟨h0, h1⟩, -⟩ := block_indices t
  unfold iblk2
  show (V c main_v63 : Arr S256x16 .bf16) (((cfg2.win 6).blk t).view.emb (ix2 j k)) = _
  refine congrArg (V c main_v63 : Arr S256x16 .bf16) (funext fun a => Fin.ext ?_)
  match a with
  | ⟨0, _⟩ => show win2_6.index t (0 : Fin 2) * 256 + 1 * j.val = j.val; omega
  | ⟨1, _⟩ => show win2_6.index t (1 : Fin 2) * 16 + 1 * k.val = k.val; omega

theorem read_b1 (c : Dev nD) (t : Fin cfg2.N) (z : Fin 1) (j : Fin 256) :
    (iblk2 (F := Ideal) V c 7 t : Vec Ideal S1x256 .f32) (ix2 z j) = (V c main_v65 : Arr S1x256 .f32) (ix2 z j) := by
  obtain ⟨-, -, -, -, -, -, -, ⟨h0, h1⟩, -⟩ := block_indices t
  unfold iblk2
  show (V c main_v65 : Arr S1x256 .f32) (((cfg2.win 7).blk t).view.emb (ix2 z j)) = _
  refine congrArg (V c main_v65 : Arr S1x256 .f32) (funext fun a => Fin.ext ?_)
  match a with
  | ⟨0, _⟩ => show win2_7.index t (0 : Fin 2) * 1 + 1 * z.val = z.val; omega
  | ⟨1, _⟩ => show win2_7.index t (1 : Fin 2) * 256 + 1 * j.val = j.val; omega

theorem read_w2 (c : Dev nD) (t : Fin cfg2.N) (z : Fin 1) (j : Fin 256) :
    (iblk2 (F := Ideal) V c 8 t : Vec Ideal S1x256 .bf16) (ix2 z j) = (V c main_v64 : Arr S1x256 .bf16) (ix2 z j) := by
  obtain ⟨-, -, -, -, -, -, -, -, ⟨h0, h1⟩, -⟩ := block_indices t
  unfold iblk2
  show (V c main_v64 : Arr S1x256 .bf16) (((cfg2.win 8).blk t).view.emb (ix2 z j)) = _
  refine congrArg (V c main_v64 : Arr S1x256 .bf16) (funext fun a => Fin.ext ?_)
  match a with
  | ⟨0, _⟩ => show win2_8.index t (0 : Fin 2) * 1 + 1 * z.val = z.val; omega
  | ⟨1, _⟩ => show win2_8.index t (1 : Fin 2) * 256 + 1 * j.val = j.val; omega

theorem read_b2 (c : Dev nD) (t : Fin cfg2.N) (z z' : Fin 1) :
    (iblk2 (F := Ideal) V c 9 t : Vec Ideal S1x1 .f32) (ix2 z z') = (V c main_v66 : Arr S1x1 .f32) (ix2 z z') := by
  obtain ⟨-, -, -, -, -, -, -, -, -, ⟨h0, h1⟩, -⟩ := block_indices t
  unfold iblk2
  show (V c main_v66 : Arr S1x1 .f32) (((cfg2.win 9).blk t).view.emb (ix2 z z')) = _
  refine congrArg (V c main_v66 : Arr S1x1 .f32) (funext fun a => Fin.ext ?_)
  match a with
  | ⟨0, _⟩ => show win2_9.index t (0 : Fin 2) * 1 + 1 * z.val = z.val; omega
  | ⟨1, _⟩ => show win2_9.index t (1 : Fin 2) * 1 + 1 * z'.val = z'.val; omega

/-! ## What a point writes back -/

/-- Point t writes back block t of the head's function of the operand arrays. -/
theorem flushed_eq (c : Dev nD) (t : Fin cfg2.N) :
    (dat2 (F := Ideal) V c).flushed 10 t = ((cfg2.win 10).blk t).view.read (Elt Ideal)
      (head (V c main_v49) (V c main_v56) (V c main_arg4) (V c main_v60) (V c main_v61) (V c main_v62) (V c main_v63)
        (V c main_v65) (V c main_v64) (V c main_v66)) := by
  show (cfg2.win 10).cut (grid2.coords t) ((dat2 (F := Ideal) V c).after 10 t) = _
  rw [after2_10]
  unfold out2_10
  rw [View.canon_unit_zero zero_offsets]
  simp only [View.ld_unit_zero (S := S4000x256) zero_offsets, View.ld_unit_zero (S := S4000x16) zero_offsets,
    View.ld_unit_zero (S := S4000x1) zero_offsets, View.ld_unit_zero (S := S256x256) zero_offsets,
    View.ld_unit_zero (S := S256x16) zero_offsets, View.ld_unit_zero (S := S1x256) zero_offsets,
    View.ld_unit_zero (S := S1x1) zero_offsets]
  funext y
  obtain ⟨p, q, rfl⟩ : ∃ (p : Fin 4000) (q : Fin 1), y = ix2 p q := ⟨y 0, y 1, eq_ix2 y⟩
  obtain rfl : q = 0 := Subsingleton.elim q 0
  have ht : t.val < 125 := Nat.lt_of_lt_of_eq t.isLt N_2
  obtain ⟨e, he⟩ : ∃ e : Fin 500000, e.val = t.val * 4000 + p.val := ⟨⟨t.val * 4000 + p.val, by have := p.isLt; omega⟩, rfl⟩
  have hi : ((cfg2.win 10).blk t).view.emb (ix2 p (0 : Fin 1)) = (ix2 e (0 : Fin 1) : S500000x1.Idx) := by
    obtain ⟨-, -, -, -, -, -, -, -, -, -, h0, h1⟩ := block_indices t
    funext a; apply Fin.ext
    match a with
    | ⟨0, _⟩ => show win2_10.index t (0 : Fin 2) * 4000 + 1 * p.val = e.val; omega
    | ⟨1, _⟩ => show win2_10.index t (1 : Fin 2) * 1 + 1 * 0 = 0; omega
  show (k2_pay1 (F := Ideal) (k2_pay2 (F := Ideal) (iblk2 V c 0 t) (iblk2 V c 1 t) (iblk2 V c 2 t) (iblk2 V c 4 t) (iblk2 V c 5 t)
        (iblk2 V c 6 t) (iblk2 V c 7 t) (iblk2 V c 8 t)) (k2_pay3 (F := Ideal) (iblk2 V c 9 t)) (iblk2 V c 3 t) : Vec Ideal S4000x1 .f32) (ix2 p (0 : Fin 1))
      = head (V c main_v49) (V c main_v56) (V c main_arg4) (V c main_v60) (V c main_v61) (V c main_v62) (V c main_v63)
          (V c main_v65) (V c main_v64) (V c main_v66) (((cfg2.win 10).blk t).view.emb (ix2 p (0 : Fin 1)))
  rw [hi]
  refine (pay1_apply _ _ _ p 0).trans ?_
  rw [pay2_apply]
  simp only [read_hu V c t p e he, read_hv V c t p e he, read_ea V c t p e he, read_loge V c t p e he, read_w1u V c t,
    read_w1v V c t, read_w1e V c t, read_b1 V c t, read_w2 V c t, read_b2 V c t]
  rfl

/-! ## The 125 row blocks tile the output array -/

/-- An index of the output array is in point t's block iff each coordinate is in the block's range on its axis. -/
theorem mem_blk (t : Fin cfg2.N) (i : S500000x1.Idx) :
    i ∈ ((cfg2.win 10).blk t).view.set ↔ ∀ a : Fin 2, win2_10.index t a * S4000x1.size a ≤ (i a).val
      ∧ (i a).val < win2_10.index t a * S4000x1.size a + S4000x1.size a := by
  show i ∈ ((View.whole main_v67).slice (win2_10.rect t)).set ↔ _
  rw [View.set_slice_whole, Rect.mem_set_unit]
  exact Iff.rfl

/-- Edge r lies in the block of point r / 4000, which is written back. -/
theorem covered (i : S500000x1.Idx) :
    ∃ t : Fin cfg2.N, (cfg2.win 10).flush t = true ∧ i ∈ ((cfg2.win 10).blk t).view.set := by
  have hi0 : (i 0).val < 500000 := (i 0).isLt
  have hi1 : (i 1).val < 1 := (i 1).isLt
  obtain ⟨t, ht⟩ : ∃ t : Fin cfg2.N, t.val = (i 0).val / 4000 :=
    ⟨⟨(i 0).val / 4000, by show (i 0).val / 4000 < grid2.N; rw [N_2]; omega⟩, rfl⟩
  obtain ⟨-, -, -, -, -, -, -, -, -, -, h0, h1⟩ := block_indices t
  refine ⟨t, flush2_10 t, ?_⟩
  rw [mem_blk]
  intro a
  match a with
  | ⟨0, _⟩ =>
    show win2_10.index t (0 : Fin 2) * 4000 ≤ (i 0).val ∧ (i 0).val < win2_10.index t (0 : Fin 2) * 4000 + 4000
    omega
  | ⟨1, _⟩ =>
    show win2_10.index t (1 : Fin 2) * 1 ≤ (i 1).val ∧ (i 1).val < win2_10.index t (1 : Fin 2) * 1 + 1
    omega

/-- The output array after the region's run is the head's function of the operand arrays at the region's entry. -/
theorem final (c : Dev nD) :
    (dat2 (F := Ideal) V c).arrAt 10 cfg2.N
      = head (V c main_v49) (V c main_v56) (V c main_arg4) (V c main_v60) (V c main_v61) (V c main_v62) (V c main_v63)
          (V c main_v65) (V c main_v64) (V c main_v66) := by
  exact (dat2 (F := Ideal) V c).arrAt_eq_of_cover 10
    (head (V c main_v49) (V c main_v56) (V c main_arg4) (V c main_v60) (V c main_v61) (V c main_v62) (V c main_v63)
      (V c main_v65) (V c main_v64) (V c main_v66))
    (fun t _ => flushed_eq V c t) (fun i => covered i)

end Cert.Sage.Region2

end
-- ==== Proof.Bridge1.lean ====
/-
  The reference's first layer is the kernel's: relu((agg·Wlᵀ + bl) + x·Wrᵀ), read index by index, is
  relu((agg·Wlᵀ + x·Wrᵀ) + bl) — the same three summands added in another order, and addition of extended reals is
  commutative and associative. The weights' change of format is the identity, the transposes and the bias's broadcast
  are re-indexings.
-/
import proofs.«117967_j13993003450942_1_alg».proof.Proof.Spec
import proofs.«117967_j13993003450942_1_alg».proof.Proof.HostK
import proofs.«117967_j13993003450942_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Sage.Bridge1

open Idealize.ShloMosaic Idealize.ShloMosaic.TcCoe Idealize.ShloMosaic.ValueIdx
open Cert.ReferenceIdeal Cert.Sage
open Cert.ReferenceIdeal.Read

/-- The aggregated operand of the first contraction is read at the node's row, column `k`. -/
theorem lidx24_eq (i : S50000x256.Idx) (k : Fin 128) : lidx_main_v24 i k = ix2 (node i) k :=
  funext fun a => Fin.ext (by match a with | ⟨0, _⟩ => rfl | ⟨1, _⟩ => rfl)

/-- The transposed first weight matrix at (k, feature) is the matrix itself at (feature, k). -/
theorem ridx24_eq (i : S50000x256.Idx) (k : Fin 128) : idx_main_v23 (ridx_main_v24 i k) = ix2 (feat i) k :=
  funext fun a => Fin.ext (by match a with | ⟨0, _⟩ => rfl | ⟨1, _⟩ => rfl)

/-- The node's own operand of the second contraction is read at the node's row, column `k`. -/
theorem lidx29_eq (i : S50000x256.Idx) (k : Fin 128) : lidx_main_v29 i k = ix2 (node i) k :=
  funext fun a => Fin.ext (by match a with | ⟨0, _⟩ => rfl | ⟨1, _⟩ => rfl)

/-- The transposed second weight matrix at (k, feature) is the matrix itself at (feature, k). -/
theorem ridx29_eq (i : S50000x256.Idx) (k : Fin 128) : idx_main_v28 (ridx_main_v29 i k) = ix2 (feat i) k :=
  funext fun a => Fin.ext (by match a with | ⟨0, _⟩ => rfl | ⟨1, _⟩ => rfl)

/-- The contraction of an array with the transposed first weight matrix is the sum of the products of the node's row
    with the feature's row of the matrix (whose change of format is the identity). -/
theorem dot_wl (agg : Arr S50000x128 .f32) (x6 : Arr S256x128 .f32) (i : S50000x256.Idx) :
    ∑ k : Fin 128, agg (lidx_main_v24 i k) * val_main_v23 (F := Ideal) x6 (ridx_main_v24 i k)
      = ∑ k : Fin 128, agg (ix2 (node i) k) * bf16 x6 (ix2 (feat i) k) := by
  refine Finset.sum_congr rfl fun k _ => ?_
  rw [val_main_v23_apply, lidx24_eq, ridx24_eq]
  rfl

/-- The same for the node's own features and the second weight matrix. -/
theorem dot_wr (x0 : Arr S50000x128 .f32) (x8 : Arr S256x128 .f32) (i : S50000x256.Idx) :
    ∑ k : Fin 128, x0 (lidx_main_v29 i k) * val_main_v28 (F := Ideal) x8 (ridx_main_v29 i k)
      = ∑ k : Fin 128, x0 (ix2 (node i) k) * bf16 x8 (ix2 (feat i) k) := by
  refine Finset.sum_congr rfl fun k _ => ?_
  rw [val_main_v28_apply, lidx29_eq, ridx29_eq]
  rfl

/-- The bias broadcast to every node, read at (node, feature), is the bias as one row read at (0, feature): both are
    the bias vector at the feature. -/
theorem bias_eq (x7 : Arr S256 .f32) (i : S50000x256.Idx) :
    row256 x7 (ix2 (0 : Fin 1) (feat i)) = x7 (idx_main_v25 (idx_main_v26 i)) := by
  unfold row256
  exact shapeCast_apply x7 _ _ (idx_main_v25 (idx_main_v26 i))
    (by rw [Shape.rowMajor_val_one, Shape.rowMajor_val_two]; show (i 1).val = 0 * 256 + (i 1).val; omega)

/-- The first layer, stated on the kernel's side, of the reference's neighbour mean and the arguments is the
    reference's first hidden array. -/
theorem layer1_eq (x0 : Arr S50000x128 .f32) (x1 : Arr S2x800000 .i32) (x6 : Arr S256x128 .f32) (x7 : Arr S256 .f32) (x8 : Arr S256x128 .f32) :
    layer1 (val_main_v22 (F := Ideal) x0 x1) x0 (bf16 x6) (bf16 x8) (row256 x7)
      = val_main_v31 (F := Ideal) x0 x1 x6 x7 x8 := by
  funext i
  rw [val_main_v31_apply, val_main_v30_apply, val_main_v27_apply, val_main_v24_apply, val_main_v26_apply,
    val_main_v25_apply, val_main_v29_apply, val_main_call0_v0_apply, val_main_call0_cst_apply]
  generalize val_main_v22 (F := Ideal) x0 x1 = agg
  unfold layer1
  rw [dot_wl, dot_wr, ← bias_eq x7 i]
  show max _ _ = max ((_ + _) + _) (Ideal.ofBits .f32 0x00000000#32)
  rw [Ideal.ofBits_zero_f32, add_right_comm]

end Cert.Sage.Bridge1

end
-- ==== Proof.Bridge2.lean ====
/-
  The reference's second layer is the kernel's: relu((agg·Wlᵀ + bl) + h·Wrᵀ), read index by index, is
  relu((agg·Wlᵀ + h·Wrᵀ) + bl) — the same three summands added in another order, and addition of extended reals is
  commutative and associative. The weights' change of format is the identity, the transposes and the bias's broadcast
  are re-indexings.
-/
import proofs.«117967_j13993003450942_1_alg».proof.Proof.Spec
import proofs.«117967_j13993003450942_1_alg».proof.Proof.HostK
import proofs.«117967_j13993003450942_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Sage.Bridge2

open Idealize.ShloMosaic Idealize.ShloMosaic.TcCoe Idealize.ShloMosaic.ValueIdx
open Cert.ReferenceIdeal Cert.Sage
open Cert.ReferenceIdeal.Read

/-! ### The reference's composed index functions, by coordinates -/

/-- Entry `(n, j)` of a product with 256 summands reads the left factor at row `n`, column `k` (the neighbour mean's
    product). -/
theorem left_agg (i : S50000x256.Idx) (k : Fin 256) : lidx_main_v52 i k = ix2 (node i) k :=
  funext fun a => Fin.ext (by match a with | ⟨0, _⟩ => rfl | ⟨1, _⟩ => rfl)

/-- The same for the product with the node's own row. -/
theorem left_self (i : S50000x256.Idx) (k : Fin 256) : lidx_main_v57 i k = ix2 (node i) k :=
  funext fun a => Fin.ext (by match a with | ⟨0, _⟩ => rfl | ⟨1, _⟩ => rfl)

/-- The right factor is a transposed weight matrix: its entry `(k, j)` is the matrix's entry `(j, k)`. -/
theorem right_agg (i : S50000x256.Idx) (k : Fin 256) : idx_main_v51 (ridx_main_v52 i k) = ix2 (feat i) k :=
  funext fun a => Fin.ext (by match a with | ⟨0, _⟩ => rfl | ⟨1, _⟩ => rfl)

/-- The same for the second weight matrix. -/
theorem right_self (i : S50000x256.Idx) (k : Fin 256) : idx_main_v56 (ridx_main_v57 i k) = ix2 (feat i) k :=
  funext fun a => Fin.ext (by match a with | ⟨0, _⟩ => rfl | ⟨1, _⟩ => rfl)

/-- The bias broadcast along the rows reads, at `(n, j)`, the bias's entry `j`. -/
theorem bias_idx (i : S50000x256.Idx) : idx_main_v53 (idx_main_v54 i) = ix1 (feat i) :=
  funext fun a => Fin.ext (by match a with | ⟨0, _⟩ => rfl)

/-! ### The kernel side's arguments at an index -/

/-- A weight at the matrix unit's input format is the weight. -/
theorem bf16_at {s : Shape} (w : Arr s .f32) (i : s.Idx) : bf16 w i = w i := rfl

/-- The bias as one row: entry `(0, j)` of the row is entry `j` of the vector. -/
theorem row256_at (b : Arr S256 .f32) (j : Fin 256) : row256 b (ix2 (0 : Fin 1) j) = b (ix1 j) := by
  unfold row256
  refine shapeCast_apply b _ (ix2 (0 : Fin 1) j) (ix1 j) ?_
  rw [Shape.rowMajor_val_one, Shape.rowMajor_val_two]
  show j.val = 0 * 256 + j.val
  omega

/-- The second layer, stated on the kernel's side, of the reference's second neighbour mean, its first hidden array
    and the arguments is the reference's second hidden array. -/
theorem layer2_eq (x0 : Arr S50000x128 .f32) (x1 : Arr S2x800000 .i32) (x6 : Arr S256x128 .f32) (x7 : Arr S256 .f32) (x8 : Arr S256x128 .f32)
    (x9 : Arr S256x256 .f32) (x10 : Arr S256 .f32) (x11 : Arr S256x256 .f32) :
    layer2 (val_main_v50 (F := Ideal) x0 x1 x6 x7 x8) (val_main_v31 (F := Ideal) x0 x1 x6 x7 x8) (bf16 x9) (bf16 x11) (row256 x10)
      = val_main_v59 (F := Ideal) x0 x1 x6 x7 x8 x9 x10 x11 := by
  funext i
  unfold layer2
  -- the reference's entry, one operation at a time, outermost first
  rw [val_main_v59_apply, val_main_v58_apply, val_main_v55_apply, val_main_v52_apply, val_main_v57_apply,
    val_main_v54_apply, val_main_v53_apply, val_main_call1_v0_apply, val_main_call1_cst_apply]
  -- the neighbour mean and the first hidden array stay unopened: both sides read the same two arrays
  generalize val_main_v50 (F := Ideal) x0 x1 x6 x7 x8 = agg
  generalize val_main_v31 (F := Ideal) x0 x1 x6 x7 x8 = h
  simp only [val_main_v51_apply, val_main_v56_apply, left_agg, left_self, right_agg, right_self, bias_idx, bf16_at, row256_at,
    Ideal.addf_def, Ideal.maximumf_def, Ideal.ofBits_def, Ideal.ofBits_zero_f32]
  -- (a + b) + c = (a + c) + b
  rw [add_right_comm]

end Cert.Sage.Bridge2

end
-- ==== Proof.Bridge3.lean ====
/-
  The reference's edge head is the kernel's. The reference joins the two endpoint rows and the edge attributes into one
  row of 528 entries and contracts it with a row of W1; the kernel contracts the three parts with the three column
  ranges of W1 and adds: a sum over 528 = 256 + 256 + 16 indices split into its three ranges. The hidden vector against
  W2, plus b2, is the same on both sides; the log exposure is added on the other side of a commutative sum; the
  reshapes between a column and a vector are re-indexings.
-/
import proofs.«117967_j13993003450942_1_alg».proof.Proof.Spec
import proofs.«117967_j13993003450942_1_alg».proof.Proof.HostK
import proofs.«117967_j13993003450942_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Sage.Bridge3

open Idealize.ShloMosaic Idealize.ShloMosaic.TcCoe Idealize.ShloMosaic.ValueIdx
open Cert.ReferenceIdeal Cert.Sage
open Cert.ReferenceIdeal.Read

/-! ## The kernel's side at an index: the reshapes between a vector, a column and a row, the change of format and the
    three column ranges of the first weight matrix -/

/-- The flattened column at `i` is the column's entry in row `i`. -/
theorem flat5_apply (o : Arr S500000x1 .f32) (i : S500000.Idx) :
    flat5 o i = o (ix2 (⟨(i 0).val, (i 0).isLt⟩ : Fin 500000) (0 : Fin 1)) := by
  unfold flat5
  exact shapeCast_apply o _ i _ (by
    rewrite [Shape.rowMajor_val_two, Shape.rowMajor_val_one]
    show (i 0).val * 1 + 0 = (i 0).val
    omega)

/-- The vector as a column, in row `p`, is the vector's entry `p`. -/
theorem col5_apply (x5 : Arr S500000 .f32) (p : Fin 500000) :
    col5 x5 (ix2 p (0 : Fin 1)) = x5 (ix1 p) := by
  unfold col5
  exact shapeCast_apply x5 _ _ _ (by
    rewrite [Shape.rowMajor_val_two, Shape.rowMajor_val_one]
    show p.val = p.val * 1 + 0
    omega)

/-- The one-entry vector as a one-by-one array. -/
theorem one1_apply (x15 : Arr S1 .f32) :
    one1 x15 (ix2 (0 : Fin 1) (0 : Fin 1)) = x15 (ix1 (0 : Fin 1)) := by
  unfold one1
  exact shapeCast_apply x15 _ _ _ (by
    rewrite [Shape.rowMajor_val_two, Shape.rowMajor_val_one]
    rfl)

/-- The bias vector as one row, in column `j`, is the vector's entry `j`. -/
theorem row256_apply (x13 : Arr S256 .f32) (j : Fin 256) :
    row256 x13 (ix2 (0 : Fin 1) j) = x13 (ix1 j) := by
  unfold row256
  exact shapeCast_apply x13 _ _ _ (by
    rewrite [Shape.rowMajor_val_two, Shape.rowMajor_val_one]
    show j.val = 0 * 256 + j.val
    omega)

/-- The change of format is the identity on extended reals. -/
theorem bf16_apply {s : Shape} (x : Arr s .f32) (i : s.Idx) : bf16 x i = x i := rfl

/-- Column `k` of the first column range is column `k` of the weight matrix. -/
theorem w1u_apply (x12 : Arr S256x528 .f32) (j k : Fin 256) :
    bf16 (w1u x12) (ix2 j k) = x12 (ix2 j (⟨k.val, by omega⟩ : Fin 528)) := by
  unfold bf16 w1u
  rw [truncf_apply]
  exact extractStridedSlice_apply _ x12 _ _ _ (fun a => match a with
    | ⟨0, _⟩ => by show j.val = 0 + j.val; omega
    | ⟨1, _⟩ => by show k.val = 0 + k.val; omega)

/-- Column `k` of the second column range is column `256 + k` of the weight matrix. -/
theorem w1v_apply (x12 : Arr S256x528 .f32) (j k : Fin 256) :
    bf16 (w1v x12) (ix2 j k) = x12 (ix2 j (⟨256 + k.val, by omega⟩ : Fin 528)) := by
  unfold bf16 w1v
  rw [truncf_apply]
  exact extractStridedSlice_apply _ x12 _ _ _ (fun a => match a with
    | ⟨0, _⟩ => by show j.val = 0 + j.val; omega
    | ⟨1, _⟩ => by show 256 + k.val = 256 + k.val; rfl)

/-- Column `k` of the third column range is column `512 + k` of the weight matrix. -/
theorem w1e_apply (x12 : Arr S256x528 .f32) (j : Fin 256) (k : Fin 16) :
    bf16 (w1e x12) (ix2 j k) = x12 (ix2 j (⟨512 + k.val, by omega⟩ : Fin 528)) := by
  unfold bf16 w1e
  rw [truncf_apply]
  exact extractStridedSlice_apply _ x12 _ _ _ (fun a => match a with
    | ⟨0, _⟩ => by show j.val = 0 + j.val; omega
    | ⟨1, _⟩ => by show 512 + k.val = 512 + k.val; rfl)

/-- The head at row `p` of its one column: the hidden vector against the second weight row, plus the last bias, plus
    the row's log exposure. -/
theorem head_apply (hu hv : Arr S500000x256 .f32) (ea : Arr S500000x16 .f32) (loge : Arr S500000x1 .f32)
    (w1u w1v : Arr S256x256 .bf16) (w1e : Arr Cert.KernelIdeal.S256x16 .bf16) (b1 : Arr S1x256 .f32) (w2 : Arr S1x256 .bf16) (b2 : Arr S1x1 .f32)
    (p : Fin 500000) :
    head hu hv ea loge w1u w1v w1e b1 w2 b2 (ix2 p (0 : Fin 1))
      = ((∑ j : Fin 256, hidden hu hv ea w1u w1v w1e b1 p j * w2 (ix2 (0 : Fin 1) j)) + b2 (ix2 (0 : Fin 1) (0 : Fin 1)))
          + loge (ix2 p (0 : Fin 1)) := rfl

/-! ## The joined row at a column: which of the three parts a column of the 528 falls in -/

section Cat
variable (hu hv : Arr S500000x256 .f32) (ea : Arr S500000x16 .f32)
  (h : Shape.Concatenates [S500000x256, S500000x256, S500000x16] S500000x528 1)

/-- A column below 256 reads the first part at that column. -/
theorem cat_u (p : Fin 500000) (k : Fin 256) (hk : k.val < 528) :
    concatenate S500000x528 1 [⟨S500000x256, hu⟩, ⟨S500000x256, hv⟩, ⟨S500000x16, ea⟩] h (ix2 p (⟨k.val, hk⟩ : Fin 528))
      = hu (ix2 p k) := by
  refine concatenate_apply_piece (1 : Fin S500000x528.rank) [⟨S500000x256, hu⟩, ⟨S500000x256, hv⟩, ⟨S500000x16, ea⟩] h _ 0
    (by show 0 < 3; omega) S500000x256 hu rfl rfl 0 rfl (ix2 p k) ?_ ?_
  · intro b hb
    match b with
    | ⟨0, _⟩ => rfl
    | ⟨1, _⟩ => exact absurd rfl hb
  · show 0 + k.val = k.val
    omega

/-- A column `256 + k`, `k` below 256, reads the second part at column `k`. -/
theorem cat_v (p : Fin 500000) (k : Fin 256) (hk : 256 + k.val < 528) :
    concatenate S500000x528 1 [⟨S500000x256, hu⟩, ⟨S500000x256, hv⟩, ⟨S500000x16, ea⟩] h (ix2 p (⟨256 + k.val, hk⟩ : Fin 528))
      = hv (ix2 p k) := by
  refine concatenate_apply_piece (1 : Fin S500000x528.rank) [⟨S500000x256, hu⟩, ⟨S500000x256, hv⟩, ⟨S500000x16, ea⟩] h _ 1
    (by show 1 < 3; omega) S500000x256 hv rfl rfl 256 rfl (ix2 p k) ?_ ?_
  · intro b hb
    match b with
    | ⟨0, _⟩ => rfl
    | ⟨1, _⟩ => exact absurd rfl hb
  · rfl

/-- A column `512 + k`, `k` below 16, reads the third part at column `k`. -/
theorem cat_e (p : Fin 500000) (k : Fin 16) (hk : 512 + k.val < 528) :
    concatenate S500000x528 1 [⟨S500000x256, hu⟩, ⟨S500000x256, hv⟩, ⟨S500000x16, ea⟩] h (ix2 p (⟨512 + k.val, hk⟩ : Fin 528))
      = ea (ix2 p k) := by
  refine concatenate_apply_piece (1 : Fin S500000x528.rank) [⟨S500000x256, hu⟩, ⟨S500000x256, hv⟩, ⟨S500000x16, ea⟩] h _ 2
    (by show 2 < 3; omega) S500000x16 ea rfl rfl 512 rfl (ix2 p k) ?_ ?_
  · intro b hb
    match b with
    | ⟨0, _⟩ => rfl
    | ⟨1, _⟩ => exact absurd rfl hb
  · rfl

end Cat

/-- A sum over 528 = (256 + 256) + 16 indices is the sum of the sums over its three ranges. -/
theorem sum528 (f : Fin 528 → EReal) :
    ∑ c : Fin 528, f c
      = ((∑ k : Fin 256, f ⟨k.val, by omega⟩) + ∑ k : Fin 256, f ⟨256 + k.val, by omega⟩) + ∑ k : Fin 16, f ⟨512 + k.val, by omega⟩ := by
  calc ∑ c : Fin 528, f c
      = (∑ i : Fin 512, f (Fin.castAdd 16 i)) + ∑ i : Fin 16, f (Fin.natAdd 512 i) := Fin.sum_univ_add (a := 512) (b := 16) f
    _ = ((∑ i : Fin 256, f (Fin.castAdd 16 (Fin.castAdd 256 i))) + ∑ i : Fin 256, f (Fin.castAdd 16 (Fin.natAdd 256 i)))
          + ∑ i : Fin 16, f (Fin.natAdd 512 i) := by
        rw [Fin.sum_univ_add (a := 256) (b := 256) (fun i => f (Fin.castAdd 16 i))]
    _ = _ := rfl

/-! ## The reference's joined row, read at the three column ranges -/

section Ref
variable (x0 : Arr S50000x128 .f32) (x1 : Arr S2x800000 .i32) (x2 x3 : Arr S500000 .i32) (x4 : Arr S500000x16 .f32)
  (x6 : Arr S256x128 .f32) (x7 : Arr S256 .f32) (x8 : Arr S256x128 .f32) (x9 : Arr S256x256 .f32) (x10 : Arr S256 .f32)
  (x11 : Arr S256x256 .f32) (x12 : Arr S256x528 .f32) (x13 : Arr S256 .f32)

/-- The joined row at a column below 256 is the first endpoint's row there. -/
theorem v74_u (p : Fin 500000) (k : Fin 256) (hk : k.val < 528) :
    val_main_v74 (F := Ideal) x0 x1 x2 x3 x4 x6 x7 x8 x9 x10 x11 (ix2 p (⟨k.val, hk⟩ : Fin 528))
      = val_main_v66 (F := Ideal) x0 x1 x2 x6 x7 x8 x9 x10 x11 (ix2 p k) := by
  unfold val_main_v74
  generalize val_main_v66 (F := Ideal) x0 x1 x2 x6 x7 x8 x9 x10 x11 = hu
  generalize val_main_v73 (F := Ideal) x0 x1 x3 x6 x7 x8 x9 x10 x11 = hv
  exact cat_u hu hv x4 _ p k hk

/-- The joined row at column `256 + k` is the second endpoint's row at `k`. -/
theorem v74_v (p : Fin 500000) (k : Fin 256) (hk : 256 + k.val < 528) :
    val_main_v74 (F := Ideal) x0 x1 x2 x3 x4 x6 x7 x8 x9 x10 x11 (ix2 p (⟨256 + k.val, hk⟩ : Fin 528))
      = val_main_v73 (F := Ideal) x0 x1 x3 x6 x7 x8 x9 x10 x11 (ix2 p k) := by
  unfold val_main_v74
  generalize val_main_v66 (F := Ideal) x0 x1 x2 x6 x7 x8 x9 x10 x11 = hu
  generalize val_main_v73 (F := Ideal) x0 x1 x3 x6 x7 x8 x9 x10 x11 = hv
  exact cat_v hu hv x4 _ p k hk

/-- The joined row at column `512 + k` is the edge attribute `k`. -/
theorem v74_e (p : Fin 500000) (k : Fin 16) (hk : 512 + k.val < 528) :
    val_main_v74 (F := Ideal) x0 x1 x2 x3 x4 x6 x7 x8 x9 x10 x11 (ix2 p (⟨512 + k.val, hk⟩ : Fin 528))
      = x4 (ix2 p k) := by
  unfold val_main_v74
  generalize val_main_v66 (F := Ideal) x0 x1 x2 x6 x7 x8 x9 x10 x11 = hu
  generalize val_main_v73 (F := Ideal) x0 x1 x3 x6 x7 x8 x9 x10 x11 = hv
  exact cat_e hu hv x4 _ p k hk

/-! ## The index functions of the reference's reading, by coordinates -/

/-- The left operand's index of the first contraction: row `p`, column `c`. -/
theorem lidx76_eq (p : Fin 500000) (j : Fin 256) (c : Fin 528) : lidx_main_v76 (ix2 p j) c = ix2 p c :=
  funext fun a => Fin.ext (by match a with | ⟨0, _⟩ => rfl | ⟨1, _⟩ => rfl)

/-- The right operand's index of the first contraction, through the transpose: row `j`, column `c`. -/
theorem ridx76_eq (p : Fin 500000) (j : Fin 256) (c : Fin 528) : idx_main_v75 (ridx_main_v76 (ix2 p j) c) = ix2 j c :=
  funext fun a => Fin.ext (by match a with | ⟨0, _⟩ => rfl | ⟨1, _⟩ => rfl)

/-- The first bias, broadcast along the rows, is read at the column. -/
theorem idx77_eq (p : Fin 500000) (j : Fin 256) : idx_main_v77 (idx_main_v78 (ix2 p j)) = ix1 j :=
  funext fun a => Fin.ext (by match a with | ⟨0, _⟩ => rfl)

/-! ## The hidden unit -/

/-- The reference's hidden unit `j` of edge `p` — the joined row against row `j` of the first weight matrix, plus the
    bias, clamped below by zero — is the kernel's: the one sum over 528 columns is the three sums over its ranges. -/
theorem hidden_eq (p : Fin 500000) (j : Fin 256) :
    val_main_v80 (F := Ideal) x0 x1 x2 x3 x4 x6 x7 x8 x9 x10 x11 x12 x13 (ix2 p j)
      = hidden (val_main_v66 (F := Ideal) x0 x1 x2 x6 x7 x8 x9 x10 x11) (val_main_v73 (F := Ideal) x0 x1 x3 x6 x7 x8 x9 x10 x11) x4
          (bf16 (w1u x12)) (bf16 (w1v x12)) (bf16 (w1e x12)) (row256 x13) p j := by
  unfold hidden
  rw [val_main_v80_apply, val_main_v79_apply, val_main_v76_apply, val_main_v78_apply, val_main_v77_apply,
    val_main_call2_v0_apply, val_main_call2_cst_apply]
  simp only [Ideal.maximumf_def, Ideal.addf_def, Ideal.ofBits_def, Ideal.ofBits_zero_f32, val_main_v75_apply, lidx76_eq,
    ridx76_eq, idx77_eq]
  rw [sum528]
  simp only [v74_u, v74_v, v74_e, w1u_apply, w1v_apply, w1e_apply, row256_apply]

end Ref

/-! ## The head -/

/-- The left operand's index of the second contraction at the flattened row: row `i`, column `k`. -/
theorem lidx82_eq (i : S500000.Idx) (k : Fin 256) :
    lidx_main_v82 (idx_main_v86 i) k = ix2 (⟨(i 0).val, (i 0).isLt⟩ : Fin 500000) k :=
  funext fun a => Fin.ext (by
    match a with
    | ⟨0, _⟩ => exact Nat.div_one _
    | ⟨1, _⟩ => rfl)

/-- The right operand's index of the second contraction, through the transpose: row 0, column `k`. -/
theorem ridx82_eq (i : S500000.Idx) (k : Fin 256) :
    idx_main_v81 (ridx_main_v82 (idx_main_v86 i) k) = ix2 (0 : Fin 1) k :=
  funext fun a => Fin.ext (by match a with | ⟨0, _⟩ => rfl | ⟨1, _⟩ => rfl)

/-- The last bias is read at its one entry. -/
theorem idx83_eq (i : S500000.Idx) : idx_main_v83 (idx_main_v84 (idx_main_v86 i)) = ix1 (0 : Fin 1) :=
  funext fun a => Fin.ext (by match a with | ⟨0, _⟩ => rfl)

/-- The head, stated on the kernel's side, of the reference's gathered endpoint rows and the arguments, flattened, is the
    reference's result. -/
theorem head_eq (x0 : Arr S50000x128 .f32) (x1 : Arr S2x800000 .i32) (x2 x3 : Arr S500000 .i32) (x4 : Arr S500000x16 .f32) (x5 : Arr S500000 .f32)
    (x6 : Arr S256x128 .f32) (x7 : Arr S256 .f32) (x8 : Arr S256x128 .f32) (x9 : Arr S256x256 .f32) (x10 : Arr S256 .f32) (x11 : Arr S256x256 .f32)
    (x12 : Arr S256x528 .f32) (x13 : Arr S256 .f32) (x14 : Arr S1x256 .f32) (x15 : Arr S1 .f32) :
    flat5 (head (val_main_v66 (F := Ideal) x0 x1 x2 x6 x7 x8 x9 x10 x11) (val_main_v73 (F := Ideal) x0 x1 x3 x6 x7 x8 x9 x10 x11) x4 (col5 x5)
        (bf16 (w1u x12)) (bf16 (w1v x12)) (bf16 (w1e x12)) (row256 x13) (bf16 x14) (one1 x15))
      = val_main_v87 (F := Ideal) x0 x1 x2 x3 x4 x5 x6 x7 x8 x9 x10 x11 x12 x13 x14 x15 := by
  funext i
  have e5 : ix1 (⟨(i 0).val, (i 0).isLt⟩ : Fin 500000) = i := (eq_ix1 i).symm
  rw [flat5_apply, head_apply, col5_apply, one1_apply, e5,
    val_main_v87_apply, val_main_v86_apply, val_main_v85_apply, val_main_v82_apply, val_main_v84_apply, val_main_v83_apply]
  simp only [Ideal.addf_def, val_main_v81_apply, lidx82_eq, ridx82_eq, idx83_eq, bf16_apply, hidden_eq]
  exact add_comm _ _

end Cert.Sage.Bridge3

end
-- ==== Proof.Equiv.lean ====
/-
  The two programs compute one function. The kernel program's result, as a function of the arguments (the neighbour
  mean, two layers, the endpoint rows, the edge head), is the reference's last stage: the host steps both programs share
  (the mean, the row gathers) are the same operations, so they carry equal arrays to equal arrays; each layer and the head
  agree index by index.
-/
import proofs.«117967_j13993003450942_1_alg».proof.Proof.KFun
import proofs.«117967_j13993003450942_1_alg».proof.Proof.Bridge1
import proofs.«117967_j13993003450942_1_alg».proof.Proof.Bridge2
import proofs.«117967_j13993003450942_1_alg».proof.Proof.Bridge3

set_option maxRecDepth 16384

noncomputable section

namespace Cert.Sage

open Idealize.ShloMosaic Cert.ReferenceIdeal Cert.ReferenceIdeal.Read

/-- The first layer's output is the reference's first hidden array: the reference's neighbour mean is the same
    composition of host operations, and the layer agrees by `Bridge1.layer1_eq`. -/
theorem hidden1_eq (x0 : Arr S50000x128 .f32) (x1 : Arr S2x800000 .i32) (x6 : Arr S256x128 .f32) (x7 : Arr S256 .f32) (x8 : Arr S256x128 .f32) :
    hidden1 x0 x1 x6 x7 x8 = val_main_v31 (F := Ideal) x0 x1 x6 x7 x8 := by
  unfold hidden1
  rw [show mean128 x0 (src x1) (dst x1) (cnt (dst x1)) = val_main_v22 (F := Ideal) x0 x1 from rfl]
  exact Bridge1.layer1_eq x0 x1 x6 x7 x8

/-- The second layer's output is the reference's second hidden array. -/
theorem hidden2_eq (x0 : Arr S50000x128 .f32) (x1 : Arr S2x800000 .i32) (x6 : Arr S256x128 .f32) (x7 : Arr S256 .f32) (x8 : Arr S256x128 .f32)
    (x9 : Arr S256x256 .f32) (x10 : Arr S256 .f32) (x11 : Arr S256x256 .f32) :
    hidden2 x0 x1 x6 x7 x8 x9 x10 x11 = val_main_v59 (F := Ideal) x0 x1 x6 x7 x8 x9 x10 x11 := by
  unfold hidden2
  rw [hidden1_eq,
    show mean256 (val_main_v31 (F := Ideal) x0 x1 x6 x7 x8) (src x1) (dst x1) (cnt (dst x1)) = val_main_v50 (F := Ideal) x0 x1 x6 x7 x8 from rfl]
  exact Bridge2.layer2_eq x0 x1 x6 x7 x8 x9 x10 x11

/-- THE VALUE EQUATION: the kernel program's function of the arguments is the reference's. -/
theorem kernelOut_eq (x0 : Arr S50000x128 .f32) (x1 : Arr S2x800000 .i32) (x2 x3 : Arr S500000 .i32) (x4 : Arr S500000x16 .f32) (x5 : Arr S500000 .f32)
    (x6 : Arr S256x128 .f32) (x7 : Arr S256 .f32) (x8 : Arr S256x128 .f32) (x9 : Arr S256x256 .f32) (x10 : Arr S256 .f32) (x11 : Arr S256x256 .f32)
    (x12 : Arr S256x528 .f32) (x13 : Arr S256 .f32) (x14 : Arr S1x256 .f32) (x15 : Arr S1 .f32) :
    kernelOut x0 x1 x2 x3 x4 x5 x6 x7 x8 x9 x10 x11 x12 x13 x14 x15
      = val_main_v87 (F := Ideal) x0 x1 x2 x3 x4 x5 x6 x7 x8 x9 x10 x11 x12 x13 x14 x15 := by
  unfold kernelOut
  rw [hidden2_eq,
    show rowsAt (val_main_v59 (F := Ideal) x0 x1 x6 x7 x8 x9 x10 x11) x2 = val_main_v66 (F := Ideal) x0 x1 x2 x6 x7 x8 x9 x10 x11 from rfl,
    show rowsAt (val_main_v59 (F := Ideal) x0 x1 x6 x7 x8 x9 x10 x11) x3 = val_main_v73 (F := Ideal) x0 x1 x3 x6 x7 x8 x9 x10 x11 from rfl]
  exact Bridge3.head_eq x0 x1 x2 x3 x4 x5 x6 x7 x8 x9 x10 x11 x12 x13 x14 x15

end Cert.Sage

end
-- ==== Proof.lean ====
/-
  The certificate of the GraphSAGE kernel program against its jnp reference, over the extended reals.

  The kernel program runs three kernels among host steps: the neighbour mean of the node features, the first layer
  relu(mean·Wl1ᵀ + x·Wr1ᵀ + bl1) (kernel 1), the mean of its output, the second layer of the same form (kernel 2), the
  second layer's rows at the two endpoints of every scored edge, and the edge head
  (relu(hu·W1uᵀ + hv·W1vᵀ + ea·W1eᵀ + b1)·W2ᵀ + b2) + log exposure (kernel 3). The reference computes the same with
  each layer's bias added before the node's own term, with the head's three contractions as one contraction of the joined
  row of 528 entries, and with the log exposure added on the other side. Over the extended reals addition is commutative
  and associative, a sum over 528 indices is the sum over its three ranges, the change of float format is the identity and
  a matrix product into a zero accumulator is the plain sum: the two results are equal entry by entry, with no use of
  the inputs' finiteness.

  The three frames: the kernel programs' are the generated frame certificates; the reference's is its generated run with
  the result dropped. The value: the kernel program's run with its result buffer named (the generated launch, read once
  more at the result), that buffer read back through the host stretches and the three regions' values to ONE function of
  the arguments (`kernelOut`), and that function equal to the reference's last stage (`kernelOut_eq`).
-/
import proofs.«117967_j13993003450942_1_alg».proof.Defs
import proofs.«117967_j13993003450942_1_alg».proof.Proof.Gen.Kernel
import proofs.«117967_j13993003450942_1_alg».proof.Proof.Gen.Kernel.Frame
import proofs.«117967_j13993003450942_1_alg».proof.Proof.Gen.KernelIdeal
import proofs.«117967_j13993003450942_1_alg».proof.Proof.Gen.KernelIdeal.Frame
import proofs.«117967_j13993003450942_1_alg».proof.Proof.Gen.ReferenceIdeal
import proofs.«117967_j13993003450942_1_alg».proof.Proof.Gen.ReferenceIdeal.Run
import proofs.«117967_j13993003450942_1_alg».proof.Proof.Gen.ReferenceIdeal.Read
import proofs.«117967_j13993003450942_1_alg».proof.Proof.Gen.Pre_finite_inputs
import proofs.«117967_j13993003450942_1_alg».proof.Proof.KRun
import proofs.«117967_j13993003450942_1_alg».proof.Proof.KHost3
import proofs.«117967_j13993003450942_1_alg».proof.Proof.Region0
import proofs.«117967_j13993003450942_1_alg».proof.Proof.Region1
import proofs.«117967_j13993003450942_1_alg».proof.Proof.Region2
import proofs.«117967_j13993003450942_1_alg».proof.Proof.Equiv
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.Sage Cert.Sage.KHost in
/-- Both programs end with the result at `kernelOut` of the kernel program's arguments: the kernel program by its run
    read back, the reference by its run, its last stage rewritten along the arguments' agreement and `kernelOut_eq`. -/
theorem algebraic : Cert.algebraic_KernelIdeal_ReferenceIdeal := by
  intro m ρ m' ρ' _ hagree
  refine ⟨fun c => kernelOut (a0 m c) (a1 m c) (a2 m c) (a3 m c) (a4 m c) (a5 m c) (a6 m c) (a7 m c) (a8 m c) (a9 m c)
    (a10 m c) (a11 m c) (a12 m c) (a13 m c) (a14 m c) (a15 m c), ?_, ?_⟩
  · exact (θ_run Cert.KernelIdeal.defs _ _).mono
      (fun r h c => ⟨(h c).1.trans (W7_v68 m ρ (fun c => Region0.final _ c) (fun c => Region1.final _ c) (fun c => Region2.final _ c) c),
        (h c).2⟩)
      (Cert.KernelIdeal.GenRun.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v87_eq, h0, h1, h2, h3, h4, h5, h6, h7, h8, h9, h10, h11, h12, h13, h14, h15]
    exact (kernelOut_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
